-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩

class Facts : Prop where
  reducesTo_S8x21x512x512_S8x512x512_d1 : S8x21x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S_S8x21x512x512 : S_.BroadcastsInDim S8x21x512x512 (![] : Fin 0 → Fin S8x21x512x512.rank)
  bcast_S_S8x1x512x512 : S_.BroadcastsInDim S8x1x512x512 (![] : Fin 0 → Fin S8x1x512x512.rank)
  bcast_S_S8x512x512 : S_.BroadcastsInDim S8x512x512 (![] : Fin 0 → Fin S8x512x512.rank)
  reducesTo_S8x21x512x512_S_d0_1_2_3 : S8x21x512x512.ReducesTo [0, 1, 2, 3] S_
  reducesTo_S8x512x512_S_d0_1_2 : S8x512x512.ReducesTo [0, 1, 2] S_

variable [Facts]

def fn_part1 {F : FTy → Type} [FloatOps F] (main_arg0 : FVec F S8x21x512x512 .f32) (main_v17 : FVec F S8x21x512x512 .f32) (main_cst_4 : FVec F S_ .f32) : IVec S_ 1 :=
  let main_v18 : FVec F S8x512x512 .f32 := (fun x v => Host.reduceAdd x v reducesTo_S8x21x512x512_S8x512x512_d1 h_S_) main_v17 main_cst_4
  let main_cst_5 : FVec F S_ .f32 := constant S_ .f32 0x41A00000#32
  let main_v19 : FVec F S8x512x512 .f32 := broadcastInDim S8x512x512 ![] bcast_S_S8x512x512 main_cst_5
  let main_v20 : FVec F S8x512x512 .f32 := Host.divf main_v18 main_v19
  let main_v21 : FVec F S8x512x512 .f32 := Host.sqrt main_v20
  let main_v22 : FVec F S8x21x512x512 .f32 := Host.absf main_arg0
  let main_cst_6 : FVec F S_ .f32 := constant S_ .f32 0x7F800000#32
  let main_v23 : FVec F S8x21x512x512 .f32 := broadcastInDim S8x21x512x512 ![] bcast_S_S8x21x512x512 main_cst_6
  let main_v24 : IVec S8x21x512x512 1 := cmpf .olt main_v22 main_v23
  let main_c : IVec S_ 1 := constantI S_ 1 1#1
  let main_v25 : IVec S_ 1 := (fun x v => Host.reduce IntOp.andi x v reducesTo_S8x21x512x512_S_d0_1_2_3 h_S_) main_v24 main_c
  let main_cst_7 : FVec F S_ .f32 := constant S_ .f32 0x7F800000#32
  let main_v26 : FVec F S_ .f32 := (fun x v => Host.reduce FloatOps.minimumf x v reducesTo_S8x512x512_S_d0_1_2 h_S_) main_v21 main_cst_7
  let main_cst_8 : FVec F S_ .f32 := constant S_ .f32 0xFF800000#32
  let main_v27 : FVec F S_ .f32 := (fun x v => Host.reduce FloatOps.maximumf x v reducesTo_S8x512x512_S_d0_1_2 h_S_) main_v21 main_cst_8
  let main_v28 : IVec S_ 1 := cmpf .olt main_v26 main_v27
  let main_v29 : IVec S_ 1 := andi main_v25 main_v28
  main_v29

def fn {F : FTy → Type} [FloatOps F] (main_arg0 : FVec F S8x21x512x512 .f32) (main_arg1 : IVec S8x512x512 32) : IVec S_ 1 :=
  let main_cst : FVec F S_ .f32 := constant S_ .f32 0xFF800000#32
  let main_v0 : FVec F S8x512x512 .f32 := (fun x v => Host.reduce FloatOps.maximumf x v reducesTo_S8x21x512x512_S8x512x512_d1 h_S_) main_arg0 main_cst
  let main_v1 : FVec F S8x1x512x512 .f32 := broadcastInDim S8x1x512x512 ![0, 2, 3] bcast_S8x512x512_S8x1x512x512_0_2_3 main_v0
  let main_v2 : FVec F S8x21x512x512 .f32 := broadcastInDim S8x21x512x512 ![0, 1, 2, 3] bcast_S8x1x512x512_S8x21x512x512_0_1_2_3 main_v1
  let main_v3 : FVec F S8x21x512x512 .f32 := subf main_arg0 main_v2
  let main_v4 : FVec F S8x21x512x512 .f32 := Host.exp main_v3
  let main_cst_0 : FVec F S_ .f32 := constant S_ .f32 0x00000000#32
  let main_v5 : FVec F S8x512x512 .f32 := (fun x v => Host.reduceAdd x v reducesTo_S8x21x512x512_S8x512x512_d1 h_S_) main_v4 main_cst_0
  let main_v6 : FVec F S8x1x512x512 .f32 := broadcastInDim S8x1x512x512 ![0, 2, 3] bcast_S8x512x512_S8x1x512x512_0_2_3 main_v5
  let main_v7 : FVec F S8x21x512x512 .f32 := broadcastInDim S8x21x512x512 ![0, 1, 2, 3] bcast_S8x1x512x512_S8x21x512x512_0_1_2_3 main_v6
  let main_v8 : FVec F S8x21x512x512 .f32 := Host.divf main_v4 main_v7
  let main_cst_1 : FVec F S_ .f32 := constant S_ .f32 0x322BCC77#32
  let main_v9 : FVec F S8x21x512x512 .f32 := broadcastInDim S8x21x512x512 ![] bcast_S_S8x21x512x512 main_cst_1
  let main_v10 : FVec F S8x21x512x512 .f32 := addf main_v8 main_v9
  let main_cst_2 : FVec F S_ .f32 := constant S_ .f32 0x00000000#32
  let main_v11 : FVec F S8x512x512 .f32 := (fun x v => Host.reduceAdd x v reducesTo_S8x21x512x512_S8x512x512_d1 h_S_) main_v10 main_cst_2
  let main_v12 : FVec F S8x1x512x512 .f32 := broadcastInDim S8x1x512x512 ![0, 2, 3] bcast_S8x512x512_S8x1x512x512_0_2_3 main_v11
  let main_cst_3 : FVec F S_ .f32 := constant S_ .f32 0x41A80000#32
  let main_v13 : FVec F S8x1x512x512 .f32 := broadcastInDim S8x1x512x512 ![] bcast_S_S8x1x512x512 main_cst_3
  let main_v14 : FVec F S8x1x512x512 .f32 := Host.divf main_v12 main_v13
  let main_v15 : FVec F S8x21x512x512 .f32 := broadcastInDim S8x21x512x512 ![0, 1, 2, 3] bcast_S8x1x512x512_S8x21x512x512_0_1_2_3 main_v14
  let main_v16 : FVec F S8x21x512x512 .f32 := subf main_v10 main_v15
  let main_v17 : FVec F S8x21x512x512 .f32 := mulf main_v16 main_v16
  let main_cst_4 : FVec F S_ .f32 := constant S_ .f32 0x00000000#32
  fn_part1 (F := F) main_arg0 main_v17 main_cst_4
-- ==== Kernel.lean ====
abbrev S8x21x512x512 : Shape := ⟨4, ![8, 21, 512, 512]⟩
abbrev S8x512x512 : Shape := ⟨3, ![8, 512, 512]⟩
abbrev S8x8x128 : Shape := ⟨3, ![8, 8, 128]⟩
abbrev S1x21x128x512 : Shape := ⟨4, ![1, 21, 128, 512]⟩
abbrev S1x128x512 : Shape := ⟨3, ![1, 128, 512]⟩
abbrev S1x8x128 : Shape := ⟨3, ![1, 8, 128]⟩
abbrev S21x128x512 : Shape := ⟨3, ![21, 128, 512]⟩
abbrev S128x512 : Shape := ⟨2, ![128, 512]⟩
abbrev S1x128 : Shape := ⟨2, ![1, 128]⟩
abbrev S1x128x1 : Shape := ⟨3, ![1, 128, 1]⟩
abbrev S1x1 : Shape := ⟨2, ![1, 1]⟩
abbrev S1x1x1 : Shape := ⟨3, ![1, 1, 1]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x512x512, .f32⟩
  | .hbm, ⟨3, _⟩ => ⟨S8x512x512, .f32⟩
  | .hbm, ⟨4, _⟩ => ⟨S8x8x128, .f32⟩
  | .hbm, ⟨5, _⟩ => ⟨S8x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x512x512, .f32⟩
  | .hbm, ⟨11, _⟩ => ⟨S8x512x512, .f32⟩
  | .hbm, ⟨12, _⟩ => ⟨S_, .f32⟩
  | .hbm, ⟨13, _⟩ => ⟨S8x512x512, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S_, .f32⟩
  | .hbm, ⟨18, _⟩ => ⟨S8x512x512, .f32⟩
  | .hbm, ⟨19, _⟩ => ⟨S8x512x512, .f32⟩
  | .hbm, ⟨20, _⟩ => ⟨S8x512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x21x128x512, .f32⟩
  | .local _ .vmem, ⟨1, _⟩ => ⟨S1x21x128x512, .f32⟩
  | .local _ .vmem, ⟨2, _⟩ => ⟨S1x128x512, .i32⟩
  | .local _ .vmem, ⟨3, _⟩ => ⟨S1x128x512, .i32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x21x128x512_S1x21x128x512_0_0_0_0 : ∀ a, (![0, 0, 0, 0] : Fin 4 → Nat) a + S1x21x128x512.size a ≤ S1x21x128x512.size a
  h_S1x21x128x512 : 0 < S1x21x128x512.numel
  shapeCasts_S1x21x128x512_S21x128x512 : S1x21x128x512.ShapeCasts S21x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S21x128x512_S128x512 : S21x128x512.Reduces [0] S128x512
  shapeCasts_S128x512_S1x128x512 : S128x512.ShapeCasts S1x128x512
  broadcasts_S1x128x512_S21x128x512 : S1x128x512.Broadcasts S21x128x512
  iota_S21x128x512_d0_w32 : S21x128x512.Iotas .tc 32 [0]
  reduces_S1x128x512_S1x128 : S1x128x512.Reduces [2] S1x128
  shapeCasts_S1x128_S1x128x1 : S1x128.ShapeCasts S1x128x1
  reduces_S1x128x1_S1x1 : S1x128x1.Reduces [1] S1x1
  shapeCasts_S1x1_S1x1x1 : S1x1.ShapeCasts S1x1x1
  shapeCasts_S1x8x128_S1x8x128 : S1x8x128.ShapeCasts S1x8x128
  shapeCasts_S1x1x1_S1x1x1 : S1x1x1.ShapeCasts S1x1x1
  broadcasts_S1x1x1_S1x8x128 : S1x1x1.Broadcasts S1x8x128
  reducesTo_S8x8x128_S_d0_1_2 : S8x8x128.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x128x512.size a ≤ S8x21x512x512.size a
  hwx0_0 : ∀ i : grid0.Coords, EltTy.bits .f32 = 32 ∨ (Rect.block (s := S8x21x512x512) S1x21x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .f32 = 32 ∨ (Rect.block (s := S8x512x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S8x512x512.size a
  hwx0_3 : ∀ i : grid0.Coords, EltTy.bits .f32 = 32 ∨ (Rect.block (s := S8x512x512) S1x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)

variable [Facts₀]

abbrev win0_0 : Pipeline.Window sig grid0 :=
  Pipeline.Window.ofSpec (Memref.whole main_arg0) S1x21x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S1x31x1x1 : Shape := ⟨4, ![1, 31, 1, 1]⟩
abbrev S8x31x512x512 : Shape := ⟨4, ![8, 31, 512, 512]⟩

abbrev nBuf : Space → Nat
  | .hbm => 88
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x21x512x512, .f32⟩
  | .hbm, ⟨15, _⟩ => ⟨S8x21x512x512, .f32⟩
  | .hbm, ⟨16, _⟩ => ⟨S_, .f32⟩
  | .hbm, ⟨17, _⟩ => ⟨S8x21x512x512, .f32⟩
  | .hbm, ⟨18, _⟩ => ⟨S8x21x512x512, .f32⟩
  | .hbm, ⟨19, _⟩ => ⟨S_, .i32⟩
  | .hbm, ⟨20, _⟩ => ⟨S_, .f32⟩
  | .hbm, ⟨21, _⟩ => ⟨S8x512x512, .f32⟩
  | .hbm, ⟨22, _⟩ => ⟨S8x1x512x512, .f32⟩
  | .hbm, ⟨23, _⟩ => ⟨S_, .f32⟩
  | .hbm, ⟨24, _⟩ => ⟨S8x1x512x512, .f32⟩
  | .hbm, ⟨25, _⟩ => ⟨S8x1x512x512, .f32⟩
  | .hbm, ⟨26, _⟩ => ⟨S8x21x512x512, .f32⟩
  | .hbm, ⟨27, _⟩ => ⟨S8x21x512x512, .f32⟩
  | .hbm, ⟨28, _⟩ => ⟨S8x21x512x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x512x512, .f32⟩
  | .hbm, ⟨34, _⟩ => ⟨S8x512x512, .f32⟩
  | .hbm, ⟨35, _⟩ => ⟨S8x512x512, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S8x512x512, .f32⟩
  | .hbm, ⟨41, _⟩ => ⟨S8x512x512, .f32⟩
  | .hbm, ⟨42, _⟩ => ⟨S8x512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x512x512, .f32⟩
  | .hbm, ⟨48, _⟩ => ⟨S8x512x512, .f32⟩
  | .hbm, ⟨49, _⟩ => ⟨S_, .f32⟩
  | .hbm, ⟨50, _⟩ => ⟨S8x512x512, .f32⟩
  | .hbm, ⟨51, _⟩ => ⟨S8x512x512, .f32⟩
  | .hbm, ⟨52, _⟩ => ⟨S8x512x512, .f32⟩
  | .hbm, ⟨53, _⟩ => ⟨S_, .f32⟩
  | .hbm, ⟨54, _⟩ => ⟨S8x512x512, .f32⟩
  | .hbm, ⟨55, _⟩ => ⟨S8x512x512, .f32⟩
  | .hbm, ⟨56, _⟩ => ⟨S_, .f32⟩
  | .hbm, ⟨57, _⟩ => ⟨S8x512x512, .f32⟩
  | .hbm, ⟨58, _⟩ => ⟨S8x512x512, .f32⟩
  | .hbm, ⟨59, _⟩ => ⟨S8x1x512x512, .i32⟩
  | .hbm, ⟨60, _⟩ => ⟨S1x31x1x1, .i32⟩
  | .hbm, ⟨61, _⟩ => ⟨S8x31x512x512, .i32⟩
  | .hbm, ⟨62, _⟩ => ⟨S8x31x512x512, .i32⟩
  | .hbm, ⟨63, _⟩ => ⟨S8x31x512x512, .i1⟩
  | .hbm, ⟨64, _⟩ => ⟨S8x31x512x512, .f32⟩
  | .hbm, ⟨65, _⟩ => ⟨S_, .f32⟩
  | .hbm, ⟨66, _⟩ => ⟨S8x31x512x512, .f32⟩
  | .hbm, ⟨67, _⟩ => ⟨S8x31x512x512, .f32⟩
  | .hbm, ⟨68, _⟩ => ⟨S8x21x512x512, .f32⟩
  | .hbm, ⟨69, _⟩ => ⟨S_, .f32⟩
  | .hbm, ⟨70, _⟩ => ⟨S8x21x512x512, .f32⟩
  | .hbm, ⟨71, _⟩ => ⟨S8x21x512x512, .f32⟩
  | .hbm, ⟨72, _⟩ => ⟨S_, .f32⟩
  | .hbm, ⟨73, _⟩ => ⟨S8x21x512x512, .f32⟩
  | .hbm, ⟨74, _⟩ => ⟨S8x21x512x512, .f32⟩
  | .hbm, ⟨75, _⟩ => ⟨S_, .f32⟩
  | .hbm, ⟨76, _⟩ => ⟨S8x21x512x512, .f32⟩
  | .hbm, ⟨77, _⟩ => ⟨S8x21x512x512, .f32⟩
  | .hbm, ⟨78, _⟩ => ⟨S8x21x512x512, .f32⟩
  | .hbm, ⟨79, _⟩ => ⟨S8x21x512x512, .f32⟩
  | .hbm, ⟨80, _⟩ => ⟨S8x1x512x512, .f32⟩
  | .hbm, ⟨81, _⟩ => ⟨S8x21x512x512, .f32⟩
  | .hbm, ⟨82, _⟩ => ⟨S8x21x512x512, .f32⟩
  | .hbm, ⟨83, _⟩ => ⟨S8x21x512x512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_cst_0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_cst_1 : Ref sig .tc := ⟨.hbm, 30, rfl⟩
abbrev main_call0_call0_v8 : Ref sig .tc := ⟨.hbm, 31, rfl⟩
abbrev main_call0_call0_cst_2 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_cst_3 : Ref sig .tc := ⟨.hbm, 36, rfl⟩
abbrev main_call0_call0_v12 : Ref sig .tc := ⟨.hbm, 37, rfl⟩
abbrev main_call0_call0_cst_4 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_v0 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_cst_4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_v23 : Ref sig .tc := ⟨.hbm, 55, rfl⟩
abbrev main_cst_6 : Ref sig .tc := ⟨.hbm, 56, rfl⟩
abbrev main_v24 : Ref sig .tc := ⟨.hbm, 57, rfl⟩
abbrev main_v25 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v26 : Ref sig .tc := ⟨.hbm, 64, rfl⟩
abbrev main_cst_7 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_8 : Ref sig .tc := ⟨.hbm, 69, rfl⟩
abbrev main_v30 : Ref sig .tc := ⟨.hbm, 70, rfl⟩
abbrev main_v31 : Ref sig .tc := ⟨.hbm, 71, rfl⟩
abbrev main_cst_9 : Ref sig .tc := ⟨.hbm, 72, rfl⟩
abbrev main_v32 : Ref sig .tc := ⟨.hbm, 73, rfl⟩
abbrev main_v33 : Ref sig .tc := ⟨.hbm, 74, rfl⟩
abbrev main_cst_10 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_11 : Ref sig .tc := ⟨.hbm, 84, rfl⟩
abbrev main_v42 : Ref sig .tc := ⟨.hbm, 85, rfl⟩
abbrev main_cst_12 : Ref sig .tc := ⟨.hbm, 86, rfl⟩
abbrev main_v43 : Ref sig .tc := ⟨.hbm, 87, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S_S8x21x512x512 : S_.BroadcastsInDim S8x21x512x512 (![] : Fin 0 → Fin S8x21x512x512.rank)
  bcast_S_S8x1x512x512 : S_.BroadcastsInDim S8x1x512x512 (![] : Fin 0 → Fin S8x1x512x512.rank)
  reducesTo_S8x512x512_S_d0_1_2 : S8x512x512.ReducesTo [0, 1, 2] S_
  bcast_S8x1x512x512_S8x31x512x512_0_1_2_3 : S8x1x512x512.BroadcastsInDim S8x31x512x512 (![0, 1, 2, 3] : Fin 4 → Fin S8x31x512x512.rank)
  bcast_S1x31x1x1_S8x31x512x512_0_1_2_3 : S1x31x1x1.BroadcastsInDim S8x31x512x512 (![0, 1, 2, 3] : Fin 4 → Fin S8x31x512x512.rank)
  bcast_S_S8x31x512x512 : S_.BroadcastsInDim S8x31x512x512 (![] : Fin 0 → Fin S8x31x512x512.rank)
  slices_S8x31x512x512_S8x21x512x512_0_0_0_0 : S8x31x512x512.Slices ![0, 0, 0, 0] S8x21x512x512
  reducesTo_S8x21x512x512_S_d0_1_2_3 : S8x21x512x512.ReducesTo [0, 1, 2, 3] S_

variable [Facts₀]

class Facts : Prop extends Facts₀ where

variable [Facts]
-- ==== Proof.Spec.lean ====
/-
  The mathematics both programs compute, stated once, pixel by pixel.

  A pixel (n, y, x) carries a column of 21 logits v. From it: the softmax of the column shifted by its maximum,
  plus a small constant, p_c = exp (v_c - max v) / Σ_k exp (v_k - max v) + ε; the unbiased standard deviation of
  the 21 numbers p_c, σ = sqrt (Σ_c (p_c - mean p)² / 20); and, with the pixel's label t, the focal sum
  Σ_c (onehot_t(c) + δ) · (-1/4) (1 - p_c)² log p_c.
  Over the whole image batch: σ is scaled by its global minimum and maximum, s = (σ - min σ) / (max σ - min σ);
  β = exp (-s) + 1; and the loss is Σ_pixels β · focal sum, divided by the number of logits.
  The second program multiplies every class term by β before summing over the classes, writes the square as a
  power, and writes exp (-s) as 1 / exp s.
-/
import Idealize.ShloMosaic.PureOps.Ideal
import Idealize.ShloMosaic.Lib.ValueIdx

noncomputable section

namespace Cert.Lasd

open Idealize.ShloMosaic Idealize.ShloMosaic.ValueIdx

/-- Indices of the logits, [8, 21, 512, 512], of a per-pixel array, [8, 512, 512], and of a per-image accumulator, [8, 8, 128]. -/
abbrev I4 := (⟨4, ![8, 21, 512, 512]⟩ : Shape).Idx
abbrev I3 := (⟨3, ![8, 512, 512]⟩ : Shape).Idx
abbrev IA := (⟨3, ![8, 8, 128]⟩ : Shape).Idx
abbrev I0 := (⟨0, ![]⟩ : Shape).Idx

/-! ## The constants, as the extended reals their words denote -/

abbrev kNegInf : EReal := Ideal.ofBits .f32 0xFF800000#32
abbrev kPosInf : EReal := Ideal.ofBits .f32 0x7F800000#32
abbrev kZero : EReal := Ideal.ofBits .f32 0x00000000#32
abbrev kOne : EReal := Ideal.ofBits .f32 0x3F800000#32
abbrev kTwo : EReal := Ideal.ofBits .f32 0x40000000#32
abbrev kEps : EReal := Ideal.ofBits .f32 0x322BCC77#32
abbrev kDelta : EReal := Ideal.ofBits .f32 0x358637BD#32
abbrev k21 : EReal := Ideal.ofBits .f32 0x41A80000#32
abbrev k20 : EReal := Ideal.ofBits .f32 0x41A00000#32
abbrev kQuarter : EReal := Ideal.ofBits .f32 0xBE800000#32
abbrev kCount : EReal := Ideal.ofBits .f32 0x4C280000#32

/-! ## One pixel: a column of 21 logits -/

/-- The column's maximum (a fold from -∞). -/
def colMax (v : Fin 21 → EReal) : EReal := Finset.univ.fold max kNegInf v

/-- exp of the column shifted by its maximum. -/
def colExp (v : Fin 21 → EReal) (c : Fin 21) : EReal := Ideal.exp (v c - colMax v)

/-- The softmax of the column, plus ε. -/
def colP (v : Fin 21 → EReal) (c : Fin 21) : EReal := Ideal.div (colExp v c) (∑ k : Fin 21, colExp v k) + kEps

/-- The mean of the 21 numbers p. -/
def colMean (v : Fin 21 → EReal) : EReal := Ideal.div (∑ k : Fin 21, colP v k) k21

/-- Their unbiased standard deviation. -/
def colSig (v : Fin 21 → EReal) : EReal :=
  Ideal.sqrt (Ideal.div (∑ k : Fin 21, (colP v k - colMean v) * (colP v k - colMean v)) k20)

/-- The smoothed one-hot weight of class c under label t, as a select between 1 and 0. -/
def ohK (t : BitVec 32) (c : Fin 21) : EReal := (if BitVec.ofNat 32 c.val = t then kOne else kZero) + kDelta

/-- The focal term of class c with the square written as a product. -/
def colFocK (v : Fin 21 → EReal) (c : Fin 21) : EReal :=
  (kQuarter * ((kOne - colP v c) * (kOne - colP v c))) * Ideal.log (colP v c)

/-- The focal sum of a pixel: the class terms weighted by the smoothed one-hot of the label. -/
def colFs (v : Fin 21 → EReal) (t : BitVec 32) : EReal := ∑ c : Fin 21, ohK t c * colFocK v c

/-! ## The arrays -/

/-- The column of pixel (n, y, x). -/
def col (X : I4 → EReal) (n : Fin 8) (y x : Fin 512) : Fin 21 → EReal := fun c => X (ix4 n c y x)

/-- p at every logit index. -/
def pA (X : I4 → EReal) : I4 → EReal := fun j => colP (col X (j 0) (j 2) (j 3)) (j 1)

/-- σ at every pixel. -/
def sigA (X : I4 → EReal) : I3 → EReal := fun i => colSig (col X (i 0) (i 1) (i 2))

/-- The focal sum at every pixel. -/
def fsA (X : I4 → EReal) (T : I3 → BitVec 32) : I3 → EReal := fun i => colFs (col X (i 0) (i 1) (i 2)) (T i)

/-- The least and the greatest σ of image n, and of the whole batch. -/
def rowMin (X : I4 → EReal) (n : Fin 8) : EReal := ⨅ (y : Fin 512) (x : Fin 512), sigA X (ix3 n y x)
def rowMax (X : I4 → EReal) (n : Fin 8) : EReal := ⨆ (y : Fin 512) (x : Fin 512), sigA X (ix3 n y x)
def sMin (X : I4 → EReal) : EReal := ⨅ i : I3, sigA X i
def sMax (X : I4 → EReal) : EReal := ⨆ i : I3, sigA X i

/-- The per-image accumulators: every entry of image n's [8, 128] tile is that image's extreme σ. -/
def mnA (X : I4 → EReal) : IA → EReal := fun i => rowMin X (i 0)
def mxA (X : I4 → EReal) : IA → EReal := fun i => rowMax X (i 0)

/-- σ scaled by the batch's minimum and maximum. -/
def scaledA (X : I4 → EReal) : I3 → EReal := fun i => Ideal.div (sigA X i - sMin X) (sMax X - sMin X)

/-- β written exp (-s) + 1, and written 1 / exp s + 1. -/
def betaK (s : EReal) : EReal := Ideal.exp (-s) + kOne
def betaR (s : EReal) : EReal := Ideal.div kOne (Ideal.exp s) + kOne

/-- The loss with β applied to each pixel's focal sum. -/
def lossK (X : I4 → EReal) (T : I3 → BitVec 32) : EReal :=
  Ideal.div (kZero + ∑ i : I3, betaK (scaledA X i) * fsA X T i) kCount

/-- The smoothed one-hot weight as an equality test read as 1 or 0. -/
def ohR (t : BitVec 32) (c : Fin 21) : EReal := (if t = BitVec.ofNat 32 c.val then (1 : EReal) else 0) + kDelta

/-- One class term of one pixel with β inside and the square written as a power. -/
def termR (X : I4 → EReal) (T : I3 → BitVec 32) (j : I4) : EReal :=
  ohR (T (ix3 (j 0) (j 2) (j 3))) (j 1)
    * (((kQuarter * Ideal.pow (kOne - pA X j) kTwo) * Ideal.log (pA X j)) * betaR (scaledA X (ix3 (j 0) (j 2) (j 3))))

/-- The loss as one sum over all logit indices. -/
def lossR (X : I4 → EReal) (T : I3 → BitVec 32) : EReal :=
  Ideal.div (kZero + ∑ j : I4, termR X T j) kCount

end Cert.Lasd

end
-- ==== Proof.Payload.lean ====
/-
  What the body's stored values are, at one entry, in terms of the pixel's column: the σ block, the focal-sum
  block, and the two running extremes over the block.
-/
import proofs.«423354_j53180285059887_3_alg».proof.Proof.Gen.KernelIdeal.Skeleton
import proofs.«423354_j53180285059887_3_alg».proof.Proof.Spec
import Idealize.ShloMosaic.Lib.ValueLayout
import Idealize.ShloMosaic.PureOps.Ideal.Laws

noncomputable section

namespace Cert.Lasd.Payload

open Idealize.ShloMosaic Idealize.ShloMosaic.ValueIdx Cert.KernelIdeal Cert.KernelIdeal.Gen Cert.Lasd

/-! ## The class axis: one plane repeated over the classes, and the sum and the maximum over the classes

Every pixel (r, q) of the block carries the column c ↦ b (0, c, r, q) of its 21 logits. The operations that are not
entrywise are read here at explicit coordinates. -/

section Reads
variable {α : Type}

/-- One [1, r, q] plane repeated along a new leading class axis: entry (c, r, q) is the plane's (0, r, q). -/
private theorem bcast_plane (x : S1x128x512.Idx → α) (h : S1x128x512.Broadcasts S21x128x512)
    (c : Fin 21) (r : Fin 128) (q : Fin 512) :
    broadcastTo S21x128x512 x h (ix3 c r q) = x (ix3 (0 : Fin 1) r q) := by
  refine broadcastTo_apply x h (ix3 c r q) (ix3 (0 : Fin 1) r q) fun ax => ?_
  match ax with
  | ⟨0, _⟩ => rfl
  | ⟨1, _⟩ => rfl
  | ⟨2, _⟩ => rfl

/-- The index a reduction over the class axis inserts above pixel (r, q) at class c is (c, r, q). -/
private theorem lift_class (h : S21x128x512.Reduces [0] S128x512) (r : Fin 128) (q : Fin 512) (c : Fin 21) :
    h.lift (ix2 r q) c = ix3 c r q := by
  funext a
  apply Fin.ext
  match a with
  | ⟨0, _⟩ => rfl
  | ⟨1, _⟩ => rfl
  | ⟨2, _⟩ => rfl

end Reads

section Pointwise
variable {s : Shape} {φ : FTy}
/-- The exponential, the logarithm and the square root act entry by entry; a constant's word denotes its extended real. -/
private theorem exp_at (a : FVec Ideal s φ) (i : s.Idx) : exp a i = Ideal.exp (a i) := rfl
private theorem log_at (a : FVec Ideal s φ) (i : s.Idx) : log a i = Ideal.log (a i) := rfl
private theorem sqrt_at (a : FVec Ideal s φ) (i : s.Idx) : sqrt a i = Ideal.sqrt (a i) := rfl
private theorem bits_at (w : BitVec 32) : Scalar.ofBits (F := Ideal) .f32 w = Ideal.ofBits .f32 w := rfl
end Pointwise

/-- The sum over the classes at pixel (r, q). -/
private theorem sum_class (src : FVec Ideal S21x128x512 .f32) (h : S21x128x512.Reduces [0] S128x512)
    (hφ : FKind.Formats .f32) (hacc : (0x00000000#32 : BitVec 32) = 0x00000000#32) (r : Fin 128) (q : Fin 512) :
    multiReduction .add [0] S128x512 src 0x00000000#32 h hφ hacc (ix2 r q) = ∑ c : Fin 21, src (ix3 c r q) := by
  refine (Ideal.multiReduction_add_single src 0x00000000#32 h hφ hacc (ix2 r q)).trans ?_
  exact Finset.sum_congr rfl fun c _ => congrArg src (lift_class h r q c)

/-- The maximum over the classes at pixel (r, q) is the column's maximum: the fold of max from -∞. -/
private theorem max_class (src : FVec Ideal S21x128x512 .f32) (h : S21x128x512.Reduces [0] S128x512)
    (hφ : FKind.Formats .f32) (hacc : (0xFF800000#32 : BitVec 32) = 0xFF800000#32) (r : Fin 128) (q : Fin 512) :
    multiReduction .maximumf [0] S128x512 src 0xFF800000#32 h hφ hacc (ix2 r q)
      = colMax (fun c : Fin 21 => src (ix3 c r q)) := by
  refine (Ideal.multiReduction_maximumf_single src 0xFF800000#32 h hφ hacc (ix2 r q)).trans ?_
  have e : (src ∘ h.lift (ix2 r q)) = fun c : Fin 21 => src (ix3 c r q) :=
    funext fun c => congrArg src (lift_class h r q c)
  exact congrArg (fun f => Finset.univ.fold max kNegInf f) e

/-- The shifted softmax plus ε: entry (c, r, q) is p_c of the column at pixel (r, q). The column's maximum is taken over
    the classes, subtracted, exponentiated, and divided by the sum of the exponentials over the classes. -/
theorem pay4_apply (b : Vec Ideal S1x21x128x512 .f32) (c : Fin 21) (r : Fin 128) (q : Fin 512) :
    k0_pay4 (F := Ideal) b (ix3 c r q) = colP (fun c' : Fin 21 => b (ix4 (0 : Fin 1) c' r q)) c := by
  unfold k0_pay4
  simp only [addf_apply, divf_apply, subf_apply, exp_at, broadcast_apply, bits_at, bcast_plane, shapeCast_ab_1ab_apply,
    shapeCast_1abc_abc_apply]
  rw [sum_class, max_class]
  simp only [subf_apply, exp_at, bcast_plane, shapeCast_ab_1ab_apply, shapeCast_1abc_abc_apply]
  rw [max_class]
  simp only [shapeCast_1abc_abc_apply]
  rfl

/-- The σ block at row r, lane q is the deviation of the column the input block holds there. -/
theorem pay5_apply (b : Vec Ideal S1x21x128x512 .f32) (r : Fin 128) (q : Fin 512) :
    k0_pay5 (F := Ideal) b (ix3 (0 : Fin 1) r q) = colSig (fun c : Fin 21 => b (ix4 (0 : Fin 1) c r q)) := by
  unfold k0_pay5
  simp only [sqrt_at, divf_apply, broadcast_apply, bits_at, shapeCast_ab_1ab_apply]
  rw [sum_class]
  simp only [mulf_apply, subf_apply, bcast_plane, divf_apply, broadcast_apply, bits_at, shapeCast_ab_1ab_apply, pay4_apply]
  rw [sum_class]
  simp only [pay4_apply]
  rfl

/-! ## The label test: the class counter against the pixel's label -/

/-- The class counter: entry (c, r, q) of the count along the class axis is the word of c. -/
private theorem iota_class (h : S21x128x512.Iotas .tc 32 [0]) (c : Fin 21) (r : Fin 128) (q : Fin 512) :
    iota .tc S21x128x512 32 [0] h (ix3 c r q) = BitVec.ofNat 32 c.val :=
  iota_single_apply .tc S21x128x512 32 0 h (ix3 c r q)

section IntPointwise
variable {s : Shape} {w : Nat}
/-- A comparison of two word arrays compares entry by entry. -/
private theorem cmpi_at (p : CmpIPredicate) (x y : IVec s w) (i : s.Idx) : cmpi p x y i = IntOp.cmpi p (x i) (y i) := rfl
end IntPointwise

/-- A choice made on the equality test of two words is the choice made on their equality. -/
private theorem select_eq_words {α : Type} (x y : BitVec 32) (A B : α) :
    Scalar.select (IntOp.cmpi .eq x y) A B = if x = y then A else B := by
  unfold Scalar.select IntOp.cmpi
  by_cases h : x = y
  · subst h; simp
  · have hb : (x == y) = false := beq_eq_false_iff_ne.mpr h
    simp [hb, h]

/-- The focal-sum block at row r, lane q is the focal sum of that column under the label the label block holds there. -/
theorem pay8_apply (b : Vec Ideal S1x21x128x512 .f32) (tb : Vec Ideal S1x128x512 .i32) (r : Fin 128) (q : Fin 512) :
    k0_pay8 (F := Ideal) (k0_pay3 (F := Ideal) tb) (k0_pay6 (F := Ideal) b) (k0_pay7 (F := Ideal) b) (Scalar.ofBits .f32 0xBE800000#32) (ix3 (0 : Fin 1) r q)
      = colFs (fun c : Fin 21 => b (ix4 (0 : Fin 1) c r q)) (tb (ix3 (0 : Fin 1) r q)) := by
  unfold k0_pay8
  simp only [shapeCast_ab_1ab_apply]
  rw [sum_class]
  unfold k0_pay3 k0_pay6 k0_pay7
  simp only [mulf_apply, addf_apply, subf_apply, log_at, select_apply, cmpi_at, broadcast_apply, bits_at, bcast_plane,
    shapeCast_ab_1ab_apply, shapeCast_1ab_ab_apply, select_eq_words, pay4_apply]
  unfold colFs
  refine Finset.sum_congr rfl fun c _ => ?_
  rw [iota_class]
  rfl

/-! ## The block extremes

The least σ of the block is taken lane-wise first (over q, for each row r), then down the rows of the resulting keepdims
column; the one number left is repeated over the whole [1, 8, 128] tile. A fold of min from +∞ over a whole axis is the
infimum over that axis, so the two steps give the infimum over r of the infimum over q. The greatest σ likewise. -/

/-- The words of +∞ and -∞ denote ⊤ and ⊥. -/
private theorem posInf_eq_top : Ideal.ofBits .f32 0x7F800000#32 = (⊤ : EReal) := by simp [Ideal.ofBits, Ideal.ieee]
private theorem negInf_eq_bot : Ideal.ofBits .f32 0xFF800000#32 = (⊥ : EReal) := by simp [Ideal.ofBits, Ideal.ieee]

/-- A fold of `min` from ⊤ over all of `Fin n` is the infimum of the family. -/
private theorem fold_min_top {n : Nat} (f : Fin n → EReal) : Finset.univ.fold min (⊤ : EReal) f = ⨅ k, f k :=
  le_antisymm (le_iInf fun k => (Finset.fold_min_le _).2 (Or.inr ⟨k, Finset.mem_univ _, le_rfl⟩))
    ((Finset.le_fold_min _).2 ⟨le_top, fun k _ => iInf_le _ k⟩)

/-- A fold of `max` from ⊥ over all of `Fin n` is the supremum of the family. -/
private theorem fold_max_bot {n : Nat} (f : Fin n → EReal) : Finset.univ.fold max (⊥ : EReal) f = ⨆ k, f k :=
  le_antisymm ((Finset.fold_max_le _).2 ⟨bot_le, fun k _ => le_iSup f k⟩)
    (iSup_le fun k => (Finset.le_fold_max _).2 (Or.inr ⟨k, Finset.mem_univ _, le_rfl⟩))

/-- A minimum reduction over one axis is the fold of `min` from the accumulator's value over that axis's coordinates. -/
private theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The index a reduction over the lanes inserts above row (u, r) at lane q is (u, r, q). -/
private theorem lift_lane (h : S1x128x512.Reduces [2] S1x128) (u : Fin 1) (r : Fin 128) (q : Fin 512) :
    h.lift (ix2 u r) q = ix3 u r q := by
  funext a
  apply Fin.ext
  match a with
  | ⟨0, _⟩ => rfl
  | ⟨1, _⟩ => rfl
  | ⟨2, _⟩ => rfl

/-- The index a reduction down the rows of a keepdims column inserts at row r is (u, r, w). -/
private theorem lift_row (h : S1x128x1.Reduces [1] S1x1) (u w : Fin 1) (r : Fin 128) :
    h.lift (ix2 u w) r = ix3 u r w := by
  funext a
  apply Fin.ext
  match a with
  | ⟨0, _⟩ => rfl
  | ⟨1, _⟩ => rfl
  | ⟨2, _⟩ => rfl

/-- The least entry along the lanes of row (u, r). -/
private theorem min_lane (src : FVec Ideal S1x128x512 .f32) (h : S1x128x512.Reduces [2] S1x128) (hφ : FKind.Formats .f32)
    (hacc : (0x7F800000#32 : BitVec 32) = 0x7F800000#32) (u : Fin 1) (r : Fin 128) :
    multiReduction .minimumf [2] S1x128 src 0x7F800000#32 h hφ hacc (ix2 u r) = ⨅ q : Fin 512, src (ix3 u r q) := by
  refine (minimumf_single src 0x7F800000#32 h hφ hacc (ix2 u r)).trans ?_
  rw [posInf_eq_top]
  refine (fold_min_top _).trans ?_
  exact iInf_congr fun q => congrArg src (lift_lane h u r q)

/-- The least entry down the rows of a keepdims column. -/
private theorem min_row (src : FVec Ideal S1x128x1 .f32) (h : S1x128x1.Reduces [1] S1x1) (hφ : FKind.Formats .f32)
    (hacc : (0x7F800000#32 : BitVec 32) = 0x7F800000#32) (u w : Fin 1) :
    multiReduction .minimumf [1] S1x1 src 0x7F800000#32 h hφ hacc (ix2 u w) = ⨅ r : Fin 128, src (ix3 u r w) := by
  refine (minimumf_single src 0x7F800000#32 h hφ hacc (ix2 u w)).trans ?_
  rw [posInf_eq_top]
  refine (fold_min_top _).trans ?_
  exact iInf_congr fun r => congrArg src (lift_row h u w r)

/-- The greatest entry along the lanes of row (u, r). -/
private theorem max_lane (src : FVec Ideal S1x128x512 .f32) (h : S1x128x512.Reduces [2] S1x128) (hφ : FKind.Formats .f32)
    (hacc : (0xFF800000#32 : BitVec 32) = 0xFF800000#32) (u : Fin 1) (r : Fin 128) :
    multiReduction .maximumf [2] S1x128 src 0xFF800000#32 h hφ hacc (ix2 u r) = ⨆ q : Fin 512, src (ix3 u r q) := by
  refine (Ideal.multiReduction_maximumf_single src 0xFF800000#32 h hφ hacc (ix2 u r)).trans ?_
  rw [Ideal.ofBits_def, negInf_eq_bot]
  refine (fold_max_bot _).trans ?_
  exact iSup_congr fun q => congrArg src (lift_lane h u r q)

/-- The greatest entry down the rows of a keepdims column. -/
private theorem max_row (src : FVec Ideal S1x128x1 .f32) (h : S1x128x1.Reduces [1] S1x1) (hφ : FKind.Formats .f32)
    (hacc : (0xFF800000#32 : BitVec 32) = 0xFF800000#32) (u w : Fin 1) :
    multiReduction .maximumf [1] S1x1 src 0xFF800000#32 h hφ hacc (ix2 u w) = ⨆ r : Fin 128, src (ix3 u r w) := by
  refine (Ideal.multiReduction_maximumf_single src 0xFF800000#32 h hφ hacc (ix2 u w)).trans ?_
  rw [Ideal.ofBits_def, negInf_eq_bot]
  refine (fold_max_bot _).trans ?_
  exact iSup_congr fun r => congrArg src (lift_row h u w r)

section Reads2
variable {α : Type}

/-- A [1, r] array viewed as the keepdims column [1, r, 1]. -/
private theorem cast_col (x : S1x128.Idx → α) (h : S1x128.ShapeCasts S1x128x1) (u : Fin 1) (r : Fin 128) (w : Fin 1) :
    shapeCast S1x128x1 x h (ix3 u r w) = x (ix2 u r) :=
  shapeCast_apply x h _ _ (by
    have hw : w.val = 0 := by omega
    rw [Shape.rowMajor_val_three, Shape.rowMajor_val_two]
    show u.val * 128 + r.val = (u.val * 128 + r.val) * 1 + w.val
    omega)

/-- The single entry of a [1, 1, 1] array repeated over a whole [1, 8, 128] tile. -/
private theorem bcast_point (x : S1x1x1.Idx → α) (h : S1x1x1.Broadcasts S1x8x128) (u : Fin 1) (a : Fin 8) (l : Fin 128) :
    broadcastTo S1x8x128 x h (ix3 u a l) = x (ix3 (0 : Fin 1) (0 : Fin 1) (0 : Fin 1)) := by
  refine broadcastTo_apply x h (ix3 u a l) (ix3 (0 : Fin 1) (0 : Fin 1) (0 : Fin 1)) fun ax => ?_
  match ax with
  | ⟨0, _⟩ => rfl
  | ⟨1, _⟩ => rfl
  | ⟨2, _⟩ => rfl

end Reads2

/-- The running minimum: every entry becomes the smaller of what it held and the least entry of the σ block. -/
theorem pay9_apply (s : FVec Ideal S1x128x512 .f32) (prev : Vec Ideal S1x8x128 .f32) (a : Fin 8) (l : Fin 128) :
    k0_pay9 (F := Ideal) s prev (ix3 (0 : Fin 1) a l) = min (prev (ix3 (0 : Fin 1) a l)) (⨅ (r : Fin 128) (q : Fin 512), s (ix3 (0 : Fin 1) r q)) := by
  unfold k0_pay9
  simp only [minimumf_apply, shapeCast_self, bcast_point, shapeCast_ab_1ab_apply]
  rw [min_row]
  simp only [cast_col]
  refine congrArg (min _) (iInf_congr fun r => ?_)
  rw [min_lane]

/-- The running maximum likewise. -/
theorem pay10_apply (s : FVec Ideal S1x128x512 .f32) (prev : Vec Ideal S1x8x128 .f32) (a : Fin 8) (l : Fin 128) :
    k0_pay10 (F := Ideal) s prev (ix3 (0 : Fin 1) a l) = max (prev (ix3 (0 : Fin 1) a l)) (⨆ (r : Fin 128) (q : Fin 512), s (ix3 (0 : Fin 1) r q)) := by
  unfold k0_pay10
  simp only [maximumf_apply, shapeCast_self, bcast_point, shapeCast_ab_1ab_apply]
  rw [max_row]
  simp only [cast_col]
  refine congrArg (max _) (iSup_congr fun r => ?_)
  rw [max_lane]

/-- The resets: +∞ for the minimum, -∞ for the maximum. -/
theorem pay1_apply (i : S1x8x128.Idx) : k0_pay1 (F := Ideal) i = (⊤ : EReal) := by
  unfold k0_pay1
  simp only [broadcast_apply, bits_at]
  exact posInf_eq_top

theorem pay2_apply (i : S1x8x128.Idx) : k0_pay2 (F := Ideal) i = (⊥ : EReal) := by
  unfold k0_pay2
  simp only [broadcast_apply, bits_at]
  exact negInf_eq_bot

end Cert.Lasd.Payload

end
-- ==== Proof.KernelArrays23.lean ====
/-
  The two per-pixel output arrays after the region: every grid point writes one [128, 512] block of image n,
  rows 128 h to 128 h + 127, whole, and the blocks tile the arrays; so the σ array holds σ of every pixel and the
  focal-sum array the focal sum of every pixel.
-/
import proofs.«423354_j53180285059887_3_alg».proof.Proof.Gen.KernelIdeal.Frame
import proofs.«423354_j53180285059887_3_alg».proof.Proof.Payload
import Idealize.ShloMosaic.Lib.Pipeline.Value
import Idealize.ShloMosaic.Lib.Tactic

noncomputable section

namespace Cert.Lasd.KernelArrays

open Idealize.ShloMosaic Idealize.ShloMosaic.ValueIdx Idealize.ShloMosaic.TcCoe Idealize.SL.Sem
open Idealize.ShloMosaic.Tactic
open Cert.KernelIdeal Cert.KernelIdeal.Gen Cert.Lasd

/-! ## What one point leaves in the two per-pixel buffers

Each of the two buffers is written by one store that covers the whole block, in either control case; its payload
reads the whole logits block (and, for the focal sum, the whole labels block). -/

section pieces
variable {F : FTy → Type} [FloatOps F]

/-- The zero offset of a rank-3 block, and of a rank-4 block. -/
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- On the first point of an image the body leaves in the σ buffer the deviation block computed from the logits block. -/
private theorem outA2 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x21x128x512 .f32) (x1 : Vec F S1x128x512 .i32) :
    out0_A_2 c i arg2 harg2 arg3 harg3 arg4 harg4 arg5 harg5 arg6 harg6 arg7 harg7 hc0 x0 x1 = k0_pay5 x0 := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_unit_zero hz3]
  simp only [View.readAt_eq_ld, harg2.read_unread, harg3.read_unread, View.ld_unit_zero (S := S1x21x128x512) hz4, View.ld_unit_zero (S := S1x128x512) hz3]

/-- On the first point of an image the body leaves in the focal-sum buffer the focal-sum block computed from the logits block and the labels block. -/
private theorem outA3 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x21x128x512 .f32) (x1 : Vec F S1x128x512 .i32) :
    out0_A_3 c i arg2 harg2 arg3 harg3 arg4 harg4 arg5 harg5 arg6 harg6 arg7 harg7 hc0 x0 x1 = k0_pay8 (k0_pay3 x1) (k0_pay6 x0) (k0_pay7 x0) (Scalar.ofBits .f32 0xBE800000#32) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_unit_zero hz3]
  simp only [View.readAt_eq_ld, harg2.read_unread, harg3.read_unread, View.ld_unit_zero (S := S1x21x128x512) hz4, View.ld_unit_zero (S := S1x128x512) hz3]

/-- On the later points of an image likewise: the σ buffer does not depend on the carried accumulators. -/
private theorem outB2 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x21x128x512 .f32) (x1 : Vec F S1x128x512 .i32) (xo4 : Vec F S1x8x128 .f32) (xo5 : Vec F S1x8x128 .f32) :
    out0_B_2 c i arg2 harg2 arg3 harg3 arg4 harg4 arg5 harg5 arg6 harg6 arg7 harg7 hc0 x0 x1 xo4 xo5 = k0_pay5 x0 := by
  unfold out0_B_2
  rw [View.read_writes_eq_canon _ _ _ (cover0_B_2 c i arg2 harg2 arg3 harg3 arg4 harg4 arg5 harg5 arg6 harg6 arg7 harg7 hc0 x0 x1 xo4 xo5)]
  unfold kernelRun0_B
  dsimp only
  sl_unfold_words
  rw [View.canon_unit_zero hz3]
  simp only [View.readAt_eq_ld, harg2.read_unread, harg3.read_unread, View.ld_unit_zero (S := S1x21x128x512) hz4, View.ld_unit_zero (S := S1x128x512) hz3]

/-- On the later points of an image likewise for the focal-sum buffer. -/
private theorem outB3 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x21x128x512 .f32) (x1 : Vec F S1x128x512 .i32) (xo4 : Vec F S1x8x128 .f32) (xo5 : Vec F S1x8x128 .f32) :
    out0_B_3 c i arg2 harg2 arg3 harg3 arg4 harg4 arg5 harg5 arg6 harg6 arg7 harg7 hc0 x0 x1 xo4 xo5 = k0_pay8 (k0_pay3 x1) (k0_pay6 x0) (k0_pay7 x0) (Scalar.ofBits .f32 0xBE800000#32) := by
  unfold out0_B_3
  rw [View.read_writes_eq_canon _ _ _ (cover0_B_3 c i arg2 harg2 arg3 harg3 arg4 harg4 arg5 harg5 arg6 harg6 arg7 harg7 hc0 x0 x1 xo4 xo5)]
  unfold kernelRun0_B
  dsimp only
  sl_unfold_words
  rw [View.canon_unit_zero hz3]
  simp only [View.readAt_eq_ld, harg2.read_unread, harg3.read_unread, View.ld_unit_zero (S := S1x21x128x512) hz4, View.ld_unit_zero (S := S1x128x512) hz3]

end pieces

variable (m : (ℓ : Loc nD τ sig) → Buf (Elt Ideal) ℓ)

/-! ## The arrays and the blocks, by name -/

/-- The logits [8, 21, 512, 512] and the labels [8, 512, 512] as the region finds them, -/
private abbrev X (c : Dev nD) : Vec Ideal S8x21x512x512 .f32 := V m c main_arg0
private abbrev T (c : Dev nD) : Vec Ideal S8x512x512 .i32 := V m c main_arg1
/-- and their blocks at point t: [1, 21, 128, 512] of the logits, [1, 128, 512] of the labels. -/
private abbrev xb (c : Dev nD) (t : Fin cfg0.N) : Vec Ideal S1x21x128x512 .f32 := iblk m c 0 t
private abbrev tb (c : Dev nD) (t : Fin cfg0.N) : Vec Ideal S1x128x512 .i32 := iblk m c 1 t

/-- The block indices over the grid (8, 4): at point t = 4 n + h the logits block is (n, 0, h, 0), and the labels
    block and the two per-pixel output blocks are (n, h, 0). -/
private theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## After any point, in either case -/

/-- After point t the σ buffer holds the deviation block of the point's logits block, whichever case t is in. -/
private theorem out2_eq (c : Dev nD) (t : Fin cfg0.N) : (outsAt0 m c t.val t.isLt).1 = k0_pay5 (xb m c t) := by
  by_cases h0 : t.val % 4 = 0
  · rw [outsAt0_A m c t h0]; dsimp only
    exact outA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  · rw [outsAt0_B m c t h0]; dsimp only
    exact outB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After point t the focal-sum buffer holds the focal-sum block of the point's logits and labels blocks. -/
private theorem out3_eq (c : Dev nD) (t : Fin cfg0.N) : (outsAt0 m c t.val t.isLt).2.1 = k0_pay8 (k0_pay3 (tb m c t)) (k0_pay6 (xb m c t)) (k0_pay7 (xb m c t)) (Scalar.ofBits .f32 0xBE800000#32) := by
  by_cases h0 : t.val % 4 = 0
  · rw [outsAt0_A m c t h0]; dsimp only
    exact outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  · rw [outsAt0_B m c t h0]; dsimp only
    exact outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## From a block's coordinates to the array's -/

/-- Point t = 4 n + h works on image n = t / 4, -/
private abbrev pn (t : Fin cfg0.N) : Fin 8 :=
  ⟨t.val / 4, by have := lt_of_lt_of_eq t.isLt (show cfg0.N = 32 from N_0); omega⟩
/-- and row r of its block is row 128 h + r of the image, h = t % 4. -/
private abbrev prow (t : Fin cfg0.N) (r : Fin 128) : Fin 512 :=
  ⟨128 * (t.val % 4) + r.val, by have := r.isLt; omega⟩

/-- Where entry (0, r, q) of point t's σ block sits in the σ array. -/
private theorem emb2 (t : Fin cfg0.N) (r : Fin 128) (q : Fin 512) :
    ((cfg0.win 2).blk t).view.emb (ix3 (0 : Fin 1) r q) = (ix3 (pn t) (prow t r) q : S8x512x512.Idx) := by
  obtain ⟨e00, e01, e02, e03, e10, e11, e12, e20, e21, e22, e30, e31, e32⟩ := idx_facts t
  funext a; apply Fin.ext
  match a with
  | ⟨0, _⟩ => show win0_2.index t (0 : Fin 3) * 1 + 1 * 0 = t.val / 4; omega
  | ⟨1, _⟩ => show win0_2.index t (1 : Fin 3) * 128 + 1 * r.val = 128 * (t.val % 4) + r.val; omega
  | ⟨2, _⟩ => show win0_2.index t (2 : Fin 3) * 512 + 1 * q.val = q.val; omega

/-- The same for the focal-sum block. -/
private theorem emb3 (t : Fin cfg0.N) (r : Fin 128) (q : Fin 512) :
    ((cfg0.win 3).blk t).view.emb (ix3 (0 : Fin 1) r q) = (ix3 (pn t) (prow t r) q : S8x512x512.Idx) := by
  obtain ⟨e00, e01, e02, e03, e10, e11, e12, e20, e21, e22, e30, e31, e32⟩ := idx_facts t
  funext a; apply Fin.ext
  match a with
  | ⟨0, _⟩ => show win0_3.index t (0 : Fin 3) * 1 + 1 * 0 = t.val / 4; omega
  | ⟨1, _⟩ => show win0_3.index t (1 : Fin 3) * 128 + 1 * r.val = 128 * (t.val % 4) + r.val; omega
  | ⟨2, _⟩ => show win0_3.index t (2 : Fin 3) * 512 + 1 * q.val = q.val; omega

/-- The logits block of point t at (0, k, r, q) is the logits array at (n, k, 128 h + r, q). -/
private theorem xb_apply (c : Dev nD) (t : Fin cfg0.N) (k : Fin 21) (r : Fin 128) (q : Fin 512) :
    xb m c t (ix4 (0 : Fin 1) k r q) = X m c (ix4 (pn t) k (prow t r) q) := by
  obtain ⟨e00, e01, e02, e03, e10, e11, e12, e20, e21, e22, e30, e31, e32⟩ := idx_facts t
  show V m c main_arg0 (((cfg0.win 0).blk t).view.emb (ix4 (0 : Fin 1) k r q)) = V m c main_arg0 (ix4 (pn t) k (prow t r) q)
  refine congrArg (V m c main_arg0) (funext fun a => Fin.ext ?_)
  match a with
  | ⟨0, _⟩ => show win0_0.index t (0 : Fin 4) * 1 + 1 * 0 = t.val / 4; omega
  | ⟨1, _⟩ => show win0_0.index t (1 : Fin 4) * 21 + 1 * k.val = k.val; omega
  | ⟨2, _⟩ => show win0_0.index t (2 : Fin 4) * 128 + 1 * r.val = 128 * (t.val % 4) + r.val; omega
  | ⟨3, _⟩ => show win0_0.index t (3 : Fin 4) * 512 + 1 * q.val = q.val; omega

/-- The labels block of point t at (0, r, q) is the labels array at (n, 128 h + r, q). -/
private theorem tb_apply (c : Dev nD) (t : Fin cfg0.N) (r : Fin 128) (q : Fin 512) :
    tb m c t (ix3 (0 : Fin 1) r q) = T m c (ix3 (pn t) (prow t r) q) := by
  obtain ⟨e00, e01, e02, e03, e10, e11, e12, e20, e21, e22, e30, e31, e32⟩ := idx_facts t
  show V m c main_arg1 (((cfg0.win 1).blk t).view.emb (ix3 (0 : Fin 1) r q)) = V m c main_arg1 (ix3 (pn t) (prow t r) q)
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 128 + 1 * r.val = 128 * (t.val % 4) + r.val; omega
  | ⟨2, _⟩ => show win0_1.index t (2 : Fin 3) * 512 + 1 * q.val = q.val; omega

/-- Every index of a [1, 128, 512] block is (0, r, q). -/
private theorem blk_idx (j : S1x128x512.Idx) : ∃ (r : Fin 128) (q : Fin 512), j = ix3 (0 : Fin 1) r q :=
  ⟨j 1, j 2, by
    funext a
    match a with
    | ⟨0, _⟩ => exact Fin.ext (by have h : (j 0).val < 1 := (j 0).isLt; show (j 0).val = 0; omega)
    | ⟨1, _⟩ => rfl
    | ⟨2, _⟩ => rfl⟩

/-! ## What each point writes back, the cover, and the arrays -/

/-- What point t writes back to the σ array: σ of the logits, read through the point's block. -/
private theorem flushed2_eq (c : Dev nD) (t : Fin cfg0.N) :
    (dats (F := Ideal) m 0 c).flushed 2 t = ((cfg0.win 2).blk t).view.read (Elt Ideal) (sigA (X m c)) := by
  show (cfg0.win 2).cut (grid0.coords t) ((dats m 0 c).after 2 t) = _
  rw [after0_2, out2_eq]
  funext j
  obtain ⟨r, q, rfl⟩ := blk_idx j
  show k0_pay5 (F := Ideal) (xb m c t) (ix3 (0 : Fin 1) r q) = sigA (X m c) (((cfg0.win 2).blk t).view.emb (ix3 (0 : Fin 1) r q))
  rw [emb2]
  refine (Payload.pay5_apply (xb m c t) r q).trans ?_
  show colSig _ = colSig (fun k : Fin 21 => X m c (ix4 (pn t) k (prow t r) q))
  exact congrArg colSig (funext fun k => xb_apply m c t k r q)

/-- What point t writes back to the focal-sum array: the focal sum of logits and labels, read through the point's block. -/
private theorem flushed3_eq (c : Dev nD) (t : Fin cfg0.N) :
    (dats (F := Ideal) m 0 c).flushed 3 t = ((cfg0.win 3).blk t).view.read (Elt Ideal) (fsA (X m c) (T m c)) := by
  show (cfg0.win 3).cut (grid0.coords t) ((dats m 0 c).after 3 t) = _
  rw [after0_3, out3_eq]
  funext j
  obtain ⟨r, q, rfl⟩ := blk_idx j
  show k0_pay8 (F := Ideal) (k0_pay3 (F := Ideal) (tb m c t)) (k0_pay6 (F := Ideal) (xb m c t)) (k0_pay7 (F := Ideal) (xb m c t)) (Scalar.ofBits .f32 0xBE800000#32) (ix3 (0 : Fin 1) r q)
    = fsA (X m c) (T m c) (((cfg0.win 3).blk t).view.emb (ix3 (0 : Fin 1) r q))
  rw [emb3]
  refine (Payload.pay8_apply (xb m c t) (tb m c t) r q).trans ?_
  show colFs _ _ = colFs (fun k : Fin 21 => X m c (ix4 (pn t) k (prow t r) q)) (T m c (ix3 (pn t) (prow t r) q))
  rw [tb_apply]
  exact congrArg (fun v => colFs v (T m c (ix3 (pn t) (prow t r) q))) (funext fun k => xb_apply m c t k r q)

/-- A pixel is in point t's σ block iff each coordinate is in the block's range on its axis. -/
private theorem mem_blk2 (t : Fin cfg0.N) (i : S8x512x512.Idx) :
    i ∈ ((cfg0.win 2).blk t).view.set ↔ ∀ a : Fin 3, win0_2.index t a * S1x128x512.size a ≤ (i a).val ∧ (i a).val < win0_2.index t a * S1x128x512.size a + S1x128x512.size a := by
  show i ∈ ((View.whole main_v0_0).slice (win0_2.rect t)).set ↔ _
  rw [View.set_slice_whole, Rect.mem_set_unit]
  exact Iff.rfl

private theorem mem_blk3 (t : Fin cfg0.N) (i : S8x512x512.Idx) :
    i ∈ ((cfg0.win 3).blk t).view.set ↔ ∀ a : Fin 3, win0_3.index t a * S1x128x512.size a ≤ (i a).val ∧ (i a).val < win0_3.index t a * S1x128x512.size a + S1x128x512.size a := by
  show i ∈ ((View.whole main_v0_1).slice (win0_3.rect t)).set ↔ _
  rw [View.set_slice_whole, Rect.mem_set_unit]
  exact Iff.rfl

/-- Pixel (n, y, x) lies in the block of point 4 n + y / 128. -/
private theorem point_of (i : S8x512x512.Idx) : ∃ t : Fin cfg0.N, t.val = 4 * (i 0).val + (i 1).val / 128 := by
  have h0 : (i 0).val < 8 := (i 0).isLt
  have h1 : (i 1).val < 512 := (i 1).isLt
  exact ⟨⟨4 * (i 0).val + (i 1).val / 128, lt_of_lt_of_eq (by omega : _ < 32) (show cfg0.N = 32 from N_0).symm⟩, rfl⟩

private theorem cover2 (i : S8x512x512.Idx) : ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 512 := (i 2).isLt
  obtain ⟨t, ht⟩ := point_of i
  obtain ⟨e00, e01, e02, e03, e10, e11, e12, e20, e21, e22, e30, e31, e32⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 512 ≤ (i 2).val ∧ (i 2).val < win0_2.index t (2 : Fin 3) * 512 + 512; omega

private theorem cover3 (i : S8x512x512.Idx) : ∃ t : Fin cfg0.N, (cfg0.win 3).flush t = true ∧ i ∈ ((cfg0.win 3).blk t).view.set := by
  have h0 : (i 0).val < 8 := (i 0).isLt
  have h1 : (i 1).val < 512 := (i 1).isLt
  have h2 : (i 2).val < 512 := (i 2).isLt
  obtain ⟨t, ht⟩ := point_of i
  obtain ⟨e00, e01, e02, e03, e10, e11, e12, e20, e21, e22, e30, e31, e32⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

private theorem X_eq (c : Dev nD) : X m c = m ((c : Thread nD τ).loc main_arg0) := V_main_arg0 m c
private theorem T_eq (c : Dev nD) : T m c = m ((c : Thread nD τ).loc main_arg1) := V_main_arg1 m c

/-- The σ array after the region. -/
theorem final2 (c : Dev nD) :
    (dats (F := Ideal) m 0 c).arrAt 2 cfg0.N = sigA (m ((c : Thread nD τ).loc main_arg0)) := by
  rw [← X_eq m c]
  exact (dats (F := Ideal) m 0 c).arrAt_eq_of_cover 2 (sigA (X m c)) (fun t _ => flushed2_eq m c t) cover2

/-- The focal-sum array after the region. -/
theorem final3 (c : Dev nD) :
    (dats (F := Ideal) m 0 c).arrAt 3 cfg0.N = fsA (m ((c : Thread nD τ).loc main_arg0)) (m ((c : Thread nD τ).loc main_arg1)) := by
  rw [← X_eq m c, ← T_eq m c]
  exact (dats (F := Ideal) m 0 c).arrAt_eq_of_cover 3 (fsA (X m c) (T m c)) (fun t _ => flushed3_eq m c t) cover3

end Cert.Lasd.KernelArrays

end
-- ==== Proof.KernelArrays45.lean ====
/-
  The two accumulator arrays after the region. Image n's [8, 128] tile is visited at its four grid points
  h = 0, 1, 2, 3 in turn: reset at h = 0, lowered (raised) by each block's least (greatest) σ, written back after
  h = 3; so every entry of the tile ends at the least (greatest) σ over all 512 × 512 pixels of image n.
-/
import proofs.«423354_j53180285059887_3_alg».proof.Proof.Gen.KernelIdeal.Frame
import proofs.«423354_j53180285059887_3_alg».proof.Proof.Payload
import Idealize.ShloMosaic.Lib.Pipeline.Value

noncomputable section

namespace Cert.Lasd.KernelArrays

open Idealize.ShloMosaic Idealize.ShloMosaic.ValueIdx Idealize.ShloMosaic.TcCoe Idealize.SL.Sem
open Cert.KernelIdeal Cert.KernelIdeal.Gen Cert.Lasd

variable (m : (ℓ : Loc nD τ sig) → Buf (Elt Ideal) ℓ)

section Pieces

variable {F : FTy → Type} [FloatOps F]

/-- The zero offsets of a rank-3 and of a rank-4 block, however spelt. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a point that does not reset, the minimum tile ends at the running minimum of what it held and the block's σ. -/
theorem out_B_4 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x21x128x512 .f32) (x1 : Vec F S1x128x512 .i32) (xo4 : Vec F S1x8x128 .f32) (xo5 : Vec F S1x8x128 .f32) :
    out0_B_4 c i arg2 harg2 arg3 harg3 arg4 harg4 arg5 harg5 arg6 harg6 arg7 harg7 hc0 x0 x1 xo4 xo5 = k0_pay9 (k0_pay5 x0) xo4 := by
  unfold out0_B_4
  rw [View.read_writes_eq_canon _ _ _ (cover0_B_4 c i arg2 harg2 arg3 harg3 arg4 harg4 arg5 harg5 arg6 harg6 arg7 harg7 hc0 x0 x1 xo4 xo5)]
  unfold kernelRun0_B
  dsimp only
  sl_unfold_words
  rw [View.canon_unit_zero (S := S1x8x128) hz3]
  simp only [View.readAt_eq_ld, harg2.read_unread, harg6.read_unread, View.ld_unit_zero (S := S1x21x128x512) hz4,
    View.ld_unit_zero (S := S1x8x128) hz3]

/-- At a point that does not reset, the maximum tile ends at the running maximum of what it held and the block's σ. -/
theorem out_B_5 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x21x128x512 .f32) (x1 : Vec F S1x128x512 .i32) (xo4 : Vec F S1x8x128 .f32) (xo5 : Vec F S1x8x128 .f32) :
    out0_B_5 c i arg2 harg2 arg3 harg3 arg4 harg4 arg5 harg5 arg6 harg6 arg7 harg7 hc0 x0 x1 xo4 xo5 = k0_pay10 (k0_pay5 x0) xo5 := by
  unfold out0_B_5
  rw [View.read_writes_eq_canon _ _ _ (cover0_B_5 c i arg2 harg2 arg3 harg3 arg4 harg4 arg5 harg5 arg6 harg6 arg7 harg7 hc0 x0 x1 xo4 xo5)]
  unfold kernelRun0_B
  dsimp only
  sl_unfold_words
  rw [View.canon_unit_zero (S := S1x8x128) hz3]
  simp only [View.readAt_eq_ld, harg2.read_unread, harg7.read_unread, View.ld_unit_zero (S := S1x21x128x512) hz4,
    View.ld_unit_zero (S := S1x8x128) hz3]

/-- At a point that resets, the minimum tile is first set to the reset value and then lowered by the block's σ: the
    later store covers the tile, and what it read back is the reset value. -/
theorem out_A_4 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x21x128x512 .f32) (x1 : Vec F S1x128x512 .i32) :
    out0_A_4 c i arg2 harg2 arg3 harg3 arg4 harg4 arg5 harg5 arg6 harg6 arg7 harg7 hc0 x0 x1 = k0_pay9 (k0_pay5 x0) (k0_pay1 (F := F)) := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, View.ld_unit_zero (S := S1x21x128x512) hz4]

/-- The maximum tile at a point that resets, likewise. -/
theorem out_A_5 (c : Dev nD) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x21x128x512 .f32) (x1 : Vec F S1x128x512 .i32) :
    out0_A_5 c i arg2 harg2 arg3 harg3 arg4 harg4 arg5 harg5 arg6 harg6 arg7 harg7 hc0 x0 x1 = k0_pay10 (k0_pay5 x0) (k0_pay2 (F := F)) := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, View.ld_unit_zero (S := S1x21x128x512) hz4]

end Pieces

/-! ## Where a point sits: image and row block -/

/-- The printed index maps, decided over the grid: point t fetches logits block (t / 4, 0, t % 4, 0) and holds the
    accumulator tiles (t / 4, 0, 0). -/
theorem idx_facts : ∀ t : Fin cfg0.N,
    win0_0.index t (0 : Fin 4) = t.val / 4 ∧ win0_0.index t (1 : Fin 4) = 0
    ∧ win0_0.index t (2 : Fin 4) = t.val % 4 ∧ win0_0.index t (3 : Fin 4) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

/-- The image a point works on (total: the remainder is idle below 32). -/
def imgOf (k : ℕ) : Fin 8 := ⟨(k / 4) % 8, Nat.mod_lt _ (by decide)⟩

/-- Row r of row block h, as a row of the image (total: the remainder is idle for h < 4). -/
def rowOf (h : ℕ) (r : Fin 128) : Fin 512 := ⟨(128 * h + r.val) % 512, Nat.mod_lt _ (by decide)⟩

/-- The logits block a point is handed, at its literal type. -/
abbrev xblk (c : Dev nD) (t : Fin cfg0.N) : Vec Ideal S1x21x128x512 .f32 := iblk m c 0 t

/-- The block read: entry (0, k, r, q) of the block at point t is logit (t / 4, k, 128 (t % 4) + r, q). -/
theorem xblk_apply (c : Dev nD) (t : Fin cfg0.N) (k : Fin 21) (r : Fin 128) (q : Fin 512) :
    xblk m c t (ix4 (0 : Fin 1) k r q)
      = m ((c : Thread nD τ).loc main_arg0) (ix4 (imgOf t.val) k (rowOf (t.val % 4) r) q) := by
  obtain ⟨e0, e1, e2, e3, -⟩ := idx_facts t
  have hN : t.val < 32 := lt_of_lt_of_eq t.isLt (show cfg0.N = 32 from N_0)
  unfold xblk iblk
  rw [View.read_apply]
  show V m c main_arg0 _ = m (c.tc.loc main_arg0) _
  unfold V
  congr 1
  funext a
  apply Fin.ext
  match a with
  | ⟨0, _⟩ => show win0_0.index t (0 : Fin 4) * 1 + 1 * (0 : Fin 1).val = (t.val / 4) % 8; rw [e0]; simp only [Fin.val_zero]; omega
  | ⟨1, _⟩ => show win0_0.index t (1 : Fin 4) * 21 + 1 * k.val = k.val; rw [e1]; omega
  | ⟨2, _⟩ => show win0_0.index t (2 : Fin 4) * 128 + 1 * r.val = (128 * (t.val % 4) + r.val) % 512; rw [e2]; have := r.isLt; omega
  | ⟨3, _⟩ => show win0_0.index t (3 : Fin 4) * 512 + 1 * q.val = q.val; rw [e3]; omega

/-! ## The running extremes -/

/-- The least and the greatest σ over row block h of image n. -/
def blkMin (X : I4 → EReal) (n : Fin 8) (h : ℕ) : EReal := ⨅ (r : Fin 128) (q : Fin 512), sigA X (ix3 n (rowOf h r) q)
def blkMax (X : I4 → EReal) (n : Fin 8) (h : ℕ) : EReal := ⨆ (r : Fin 128) (q : Fin 512), sigA X (ix3 n (rowOf h r) q)

/-- The running minimum (maximum) after row blocks 0 … h: from +∞ (-∞), lowered (raised) block by block. -/
def accMin (X : I4 → EReal) (n : Fin 8) : ℕ → EReal
  | 0 => min ⊤ (blkMin X n 0)
  | h + 1 => min (accMin X n h) (blkMin X n (h + 1))
def accMax (X : I4 → EReal) (n : Fin 8) : ℕ → EReal
  | 0 => max ⊥ (blkMax X n 0)
  | h + 1 => max (accMax X n h) (blkMax X n (h + 1))

/-- The least σ of a block whose entries are the logits of row block h of image n is that row block's least σ. -/
theorem blk_sig_min (X : I4 → EReal) (n : Fin 8) (h : ℕ) (b : Vec Ideal S1x21x128x512 .f32)
    (hb : ∀ (k : Fin 21) (r : Fin 128) (q : Fin 512), b (ix4 (0 : Fin 1) k r q) = X (ix4 n k (rowOf h r) q)) :
    (⨅ (r : Fin 128) (q : Fin 512), k0_pay5 (F := Ideal) b (ix3 (0 : Fin 1) r q)) = blkMin X n h := by
  unfold blkMin
  refine iInf_congr fun r => iInf_congr fun q => ?_
  refine (Payload.pay5_apply b r q).trans ?_
  show colSig _ = colSig (col X n (rowOf h r) q)
  exact congrArg colSig (funext fun k => hb k r q)

theorem blk_sig_max (X : I4 → EReal) (n : Fin 8) (h : ℕ) (b : Vec Ideal S1x21x128x512 .f32)
    (hb : ∀ (k : Fin 21) (r : Fin 128) (q : Fin 512), b (ix4 (0 : Fin 1) k r q) = X (ix4 n k (rowOf h r) q)) :
    (⨆ (r : Fin 128) (q : Fin 512), k0_pay5 (F := Ideal) b (ix3 (0 : Fin 1) r q)) = blkMax X n h := by
  unfold blkMax
  refine iSup_congr fun r => iSup_congr fun q => ?_
  refine (Payload.pay5_apply b r q).trans ?_
  show colSig _ = colSig (col X n (rowOf h r) q)
  exact congrArg colSig (funext fun k => hb k r q)

/-- One more row block: the step of the running extremes, with the image and the block number as equations. -/
theorem accMin_step (X : I4 → EReal) (n n' : Fin 8) (j j' : ℕ) (hn : n' = n) (hj : j = j' + 1) :
    min (accMin X n' j') (blkMin X n j) = accMin X n j := by subst hn; subst hj; rfl
theorem accMax_step (X : I4 → EReal) (n n' : Fin 8) (j j' : ℕ) (hn : n' = n) (hj : j = j' + 1) :
    max (accMax X n' j') (blkMax X n j) = accMax X n j := by subst hn; subst hj; rfl

/-- Every index of a [1, 8, 128] tile is (0, a, l). -/
theorem tile_idx (j : S1x8x128.Idx) : ∃ (a : Fin 8) (l : Fin 128), j = ix3 (0 : Fin 1) a l :=
  ⟨j 1, j 2, by
    funext d
    match d with
    | ⟨0, _⟩ => exact Fin.ext (by have h : (j 0).val < 1 := (j 0).isLt; show (j 0).val = 0; omega)
    | ⟨1, _⟩ => rfl
    | ⟨2, _⟩ => rfl⟩

/-- One point of the minimum tile: given what the point before left (where the point does not reset), every entry
    after point t is the running minimum of image t / 4 through row block t % 4. -/
theorem step4 (c : Dev nD) (t : Fin cfg0.N)
    (ih : ¬t.val % 4 = 0 → ∀ j : S1x8x128.Idx, (outsAt0 (F := Ideal) m c (t.val - 1) (Nat.lt_of_le_of_lt (Nat.sub_le _ _) t.isLt)).2.2.1 j
      = accMin (m ((c : Thread nD τ).loc main_arg0)) (imgOf (t.val - 1)) ((t.val - 1) % 4))
    (j : S1x8x128.Idx) :
    (outsAt0 (F := Ideal) m c t.val t.isLt).2.2.1 j = accMin (m ((c : Thread nD τ).loc main_arg0)) (imgOf t.val) (t.val % 4) := by
  obtain ⟨a, l, rfl⟩ := tile_idx j
  by_cases h0 : t.val % 4 = 0
  · rw [outsAt0_A m c t h0]
    dsimp only
    refine (congrFun (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) (ix3 (0 : Fin 1) a l)).trans ?_
    refine (Payload.pay9_apply (k0_pay5 (F := Ideal) (xblk m c t)) (k0_pay1 (F := Ideal)) a l).trans ?_
    rw [Payload.pay1_apply, blk_sig_min (m ((c : Thread nD τ).loc main_arg0)) (imgOf t.val) (t.val % 4) (xblk m c t) (fun k r q => xblk_apply m c t k r q), h0]
    rfl
  · rw [outsAt0_B m c t h0]
    dsimp only
    refine (congrFun (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
      (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix3 (0 : Fin 1) a l)).trans ?_
    refine (Payload.pay9_apply (k0_pay5 (F := Ideal) (xblk m c t)) (outsAt0 (F := Ideal) m c (t.val - 1) (Nat.lt_of_le_of_lt (Nat.sub_le _ _) t.isLt)).2.2.1 a l).trans ?_
    rw [ih h0 (ix3 (0 : Fin 1) a l), blk_sig_min (m ((c : Thread nD τ).loc main_arg0)) (imgOf t.val) (t.val % 4) (xblk m c t) (fun k r q => xblk_apply m c t k r q)]
    exact accMin_step _ _ _ _ _ (Fin.ext (by show ((t.val - 1) / 4) % 8 = (t.val / 4) % 8; omega)) (by omega)

/-- The maximum tile likewise. -/
theorem step5 (c : Dev nD) (t : Fin cfg0.N)
    (ih : ¬t.val % 4 = 0 → ∀ j : S1x8x128.Idx, (outsAt0 (F := Ideal) m c (t.val - 1) (Nat.lt_of_le_of_lt (Nat.sub_le _ _) t.isLt)).2.2.2 j
      = accMax (m ((c : Thread nD τ).loc main_arg0)) (imgOf (t.val - 1)) ((t.val - 1) % 4))
    (j : S1x8x128.Idx) :
    (outsAt0 (F := Ideal) m c t.val t.isLt).2.2.2 j = accMax (m ((c : Thread nD τ).loc main_arg0)) (imgOf t.val) (t.val % 4) := by
  obtain ⟨a, l, rfl⟩ := tile_idx j
  by_cases h0 : t.val % 4 = 0
  · rw [outsAt0_A m c t h0]
    dsimp only
    refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) (ix3 (0 : Fin 1) a l)).trans ?_
    refine (Payload.pay10_apply (k0_pay5 (F := Ideal) (xblk m c t)) (k0_pay2 (F := Ideal)) a l).trans ?_
    rw [Payload.pay2_apply, blk_sig_max (m ((c : Thread nD τ).loc main_arg0)) (imgOf t.val) (t.val % 4) (xblk m c t) (fun k r q => xblk_apply m c t k r q), h0]
    rfl
  · rw [outsAt0_B m c t h0]
    dsimp only
    refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
      (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix3 (0 : Fin 1) a l)).trans ?_
    refine (Payload.pay10_apply (k0_pay5 (F := Ideal) (xblk m c t)) (outsAt0 (F := Ideal) m c (t.val - 1) (Nat.lt_of_le_of_lt (Nat.sub_le _ _) t.isLt)).2.2.2 a l).trans ?_
    rw [ih h0 (ix3 (0 : Fin 1) a l), blk_sig_max (m ((c : Thread nD τ).loc main_arg0)) (imgOf t.val) (t.val % 4) (xblk m c t) (fun k r q => xblk_apply m c t k r q)]
    exact accMax_step _ _ _ _ _ (Fin.ext (by show ((t.val - 1) / 4) % 8 = (t.val / 4) % 8; omega)) (by omega)

/-- After point k every entry of the minimum tile is the running minimum of image k / 4 through row block k % 4:
    by induction on the point, the step above at each. -/
theorem acc4 (c : Dev nD) : ∀ (k : ℕ) (hk : k < cfg0.N) (j : S1x8x128.Idx),
    (outsAt0 (F := Ideal) m c k hk).2.2.1 j = accMin (m ((c : Thread nD τ).loc main_arg0)) (imgOf k) (k % 4)
  | 0, hk, j => step4 m c ⟨0, hk⟩ (fun h => absurd (Nat.zero_mod 4) h) j
  | k + 1, hk, j => step4 m c ⟨k + 1, hk⟩ (fun _ j' => acc4 c k (Nat.lt_of_succ_lt hk) j') j

theorem acc5 (c : Dev nD) : ∀ (k : ℕ) (hk : k < cfg0.N) (j : S1x8x128.Idx),
    (outsAt0 (F := Ideal) m c k hk).2.2.2 j = accMax (m ((c : Thread nD τ).loc main_arg0)) (imgOf k) (k % 4)
  | 0, hk, j => step5 m c ⟨0, hk⟩ (fun h => absurd (Nat.zero_mod 4) h) j
  | k + 1, hk, j => step5 m c ⟨k + 1, hk⟩ (fun _ j' => acc5 c k (Nat.lt_of_succ_lt hk) j') j

/-! ## Four row blocks make the image -/

theorem rowMin_le_blkMin (X : I4 → EReal) (n : Fin 8) (h : ℕ) : rowMin X n ≤ blkMin X n h :=
  le_iInf fun r => le_iInf fun q => iInf_le_of_le (rowOf h r) (iInf_le _ q)
theorem blkMax_le_rowMax (X : I4 → EReal) (n : Fin 8) (h : ℕ) : blkMax X n h ≤ rowMax X n :=
  iSup_le fun r => iSup_le fun q => le_iSup_of_le (rowOf h r) (le_iSup (fun x : Fin 512 => sigA X (ix3 n (rowOf h r) x)) q)

theorem rowMin_le_accMin (X : I4 → EReal) (n : Fin 8) : ∀ h : ℕ, rowMin X n ≤ accMin X n h
  | 0 => le_min le_top (rowMin_le_blkMin X n 0)
  | h + 1 => le_min (rowMin_le_accMin X n h) (rowMin_le_blkMin X n (h + 1))
theorem accMax_le_rowMax (X : I4 → EReal) (n : Fin 8) : ∀ h : ℕ, accMax X n h ≤ rowMax X n
  | 0 => max_le bot_le (blkMax_le_rowMax X n 0)
  | h + 1 => max_le (accMax_le_rowMax X n h) (blkMax_le_rowMax X n (h + 1))

theorem accMin_le_blkMin (X : I4 → EReal) (n : Fin 8) : ∀ (h j : ℕ), j ≤ h → accMin X n h ≤ blkMin X n j
  | 0, j, hj => by obtain rfl : j = 0 := by omega
                   exact min_le_right _ _
  | h + 1, j, hj => by
    by_cases e : j = h + 1
    · subst e; exact min_le_right _ _
    · exact (min_le_left _ _).trans (accMin_le_blkMin X n h j (by omega))
theorem blkMax_le_accMax (X : I4 → EReal) (n : Fin 8) : ∀ (h j : ℕ), j ≤ h → blkMax X n j ≤ accMax X n h
  | 0, j, hj => by obtain rfl : j = 0 := by omega
                   exact le_max_right _ _
  | h + 1, j, hj => by
    by_cases e : j = h + 1
    · subst e; exact le_max_right _ _
    · exact (blkMax_le_accMax X n h j (by omega)).trans (le_max_left _ _)

/-- Row y of the image is row y % 128 of row block y / 128. -/
theorem rowOf_div_mod (y : Fin 512) : rowOf (y.val / 128) ⟨y.val % 128, Nat.mod_lt _ (by decide)⟩ = y :=
  Fin.ext (by have := y.isLt; show (128 * (y.val / 128) + y.val % 128) % 512 = y.val; omega)

/-- After the fourth row block the running minimum is the least σ of the whole image. -/
theorem accMin_three (X : I4 → EReal) (n : Fin 8) : accMin X n 3 = rowMin X n := by
  refine le_antisymm ?_ (rowMin_le_accMin X n 3)
  unfold rowMin
  refine le_iInf fun y => le_iInf fun x => ?_
  have hy := y.isLt
  refine (accMin_le_blkMin X n 3 (y.val / 128) (by omega)).trans ?_
  refine iInf_le_of_le ⟨y.val % 128, Nat.mod_lt _ (by decide)⟩ (iInf_le_of_le x (le_of_eq ?_))
  rw [rowOf_div_mod]

theorem accMax_three (X : I4 → EReal) (n : Fin 8) : accMax X n 3 = rowMax X n := by
  refine le_antisymm (accMax_le_rowMax X n 3) ?_
  unfold rowMax
  refine iSup_le fun y => iSup_le fun x => ?_
  have hy := y.isLt
  refine le_trans ?_ (blkMax_le_accMax X n 3 (y.val / 128) (by omega))
  refine le_iSup_of_le ⟨y.val % 128, Nat.mod_lt _ (by decide)⟩ (le_iSup_of_le x (le_of_eq ?_))
  rw [rowOf_div_mod]

/-! ## What is written back, and where -/

/-- The write-back after the last row block of an image writes that image's tile of the minimum array. -/
theorem flushed4_eq (c : Dev nD) (t : Fin cfg0.N) (hf : (cfg0.win 4).flush t = true) :
    (dats (F := Ideal) m 0 c).flushed 4 t
      = ((cfg0.win 4).blk t).view.read (Elt Ideal) (mnA (m ((c : Thread nD τ).loc main_arg0))) := by
  have h3 : t.val % 4 = 3 := (flush0_4 t).mp hf
  have hN : t.val < 32 := lt_of_lt_of_eq t.isLt (show cfg0.N = 32 from N_0)
  obtain ⟨-, -, -, -, e4, -⟩ := idx_facts t
  show (cfg0.win 4).cut (grid0.coords t) ((dats m 0 c).after 4 t) = _
  rw [after0_4]
  funext j
  show (outsAt0 (F := Ideal) m c t.val t.isLt).2.2.1 j
    = mnA (m ((c : Thread nD τ).loc main_arg0)) (((cfg0.win 4).blk t).view.emb j)
  rw [acc4 m c t.val t.isLt j, h3, accMin_three]
  show rowMin _ (imgOf t.val) = rowMin _ ((((cfg0.win 4).blk t).view.emb j) 0)
  congr 1
  apply Fin.ext
  show (t.val / 4) % 8 = win0_4.index t (0 : Fin 3) * 1 + 1 * (j 0).val
  have hj : (j 0).val < 1 := (j 0).isLt
  rw [e4]; omega

theorem flushed5_eq (c : Dev nD) (t : Fin cfg0.N) (hf : (cfg0.win 5).flush t = true) :
    (dats (F := Ideal) m 0 c).flushed 5 t
      = ((cfg0.win 5).blk t).view.read (Elt Ideal) (mxA (m ((c : Thread nD τ).loc main_arg0))) := by
  have h3 : t.val % 4 = 3 := (flush0_5 t).mp hf
  have hN : t.val < 32 := lt_of_lt_of_eq t.isLt (show cfg0.N = 32 from N_0)
  obtain ⟨-, -, -, -, -, -, -, e7, -⟩ := idx_facts t
  show (cfg0.win 5).cut (grid0.coords t) ((dats m 0 c).after 5 t) = _
  rw [after0_5]
  funext j
  show (outsAt0 (F := Ideal) m c t.val t.isLt).2.2.2 j
    = mxA (m ((c : Thread nD τ).loc main_arg0)) (((cfg0.win 5).blk t).view.emb j)
  rw [acc5 m c t.val t.isLt j, h3, accMax_three]
  show rowMax _ (imgOf t.val) = rowMax _ ((((cfg0.win 5).blk t).view.emb j) 0)
  congr 1
  apply Fin.ext
  show (t.val / 4) % 8 = win0_5.index t (0 : Fin 3) * 1 + 1 * (j 0).val
  have hj : (j 0).val < 1 := (j 0).isLt
  rw [e7]; omega

/-- An entry of an accumulator array is in point t's tile iff each coordinate is in the tile's range on its axis. -/
theorem mem_blk4 (t : Fin cfg0.N) (i : S8x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_2).slice (win0_4.rect t)).set ↔ _
  rw [View.set_slice_whole, Rect.mem_set_unit]
  exact Iff.rfl
theorem mem_blk5 (t : Fin cfg0.N) (i : S8x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_3).slice (win0_5.rect t)).set ↔ _
  rw [View.set_slice_whole, Rect.mem_set_unit]
  exact Iff.rfl

/-- Entry (n, a, l) is written back at point 4 n + 3, the last of image n. -/
theorem cover4 (i : S8x8x128.Idx) : ∃ t : Fin cfg0.N, (cfg0.win 4).flush t = true ∧ i ∈ ((cfg0.win 4).blk t).view.set := by
  have h0 : (i 0).val < 8 := (i 0).isLt
  have h1 : (i 1).val < 8 := (i 1).isLt
  have h2 : (i 2).val < 128 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨-, -, -, -, e4, e5, e6, -⟩ := idx_facts t
  refine ⟨t, (flush0_4 t).mpr (by rw [ht]; omega), ?_⟩
  rw [mem_blk4]
  intro a
  match a with
  | ⟨0, _⟩ => show win0_4.index t (0 : Fin 3) * 1 ≤ (i 0).val ∧ (i 0).val < win0_4.index t (0 : Fin 3) * 1 + 1; rw [e4, ht]; omega
  | ⟨1, _⟩ => show win0_4.index t (1 : Fin 3) * 8 ≤ (i 1).val ∧ (i 1).val < win0_4.index t (1 : Fin 3) * 8 + 8; rw [e5]; omega
  | ⟨2, _⟩ => show win0_4.index t (2 : Fin 3) * 128 ≤ (i 2).val ∧ (i 2).val < win0_4.index t (2 : Fin 3) * 128 + 128; rw [e6]; omega

theorem cover5 (i : S8x8x128.Idx) : ∃ t : Fin cfg0.N, (cfg0.win 5).flush t = true ∧ i ∈ ((cfg0.win 5).blk t).view.set := by
  have h0 : (i 0).val < 8 := (i 0).isLt
  have h1 : (i 1).val < 8 := (i 1).isLt
  have h2 : (i 2).val < 128 := (i 2).isLt
  have hN : cfg0.N = 32 := N_0
  obtain ⟨t, ht⟩ : ∃ t : Fin cfg0.N, t.val = 4 * (i 0).val + 3 := ⟨⟨4 * (i 0).val + 3, by rw [hN]; omega⟩, rfl⟩
  obtain ⟨-, -, -, -, -, -, -, e7, e8, e9⟩ := idx_facts t
  refine ⟨t, (flush0_5 t).mpr (by rw [ht]; omega), ?_⟩
  rw [mem_blk5]
  intro a
  match a with
  | ⟨0, _⟩ => show win0_5.index t (0 : Fin 3) * 1 ≤ (i 0).val ∧ (i 0).val < win0_5.index t (0 : Fin 3) * 1 + 1; rw [e7, ht]; omega
  | ⟨1, _⟩ => show win0_5.index t (1 : Fin 3) * 8 ≤ (i 1).val ∧ (i 1).val < win0_5.index t (1 : Fin 3) * 8 + 8; rw [e8]; omega
  | ⟨2, _⟩ => show win0_5.index t (2 : Fin 3) * 128 ≤ (i 2).val ∧ (i 2).val < win0_5.index t (2 : Fin 3) * 128 + 128; rw [e9]; omega

/-- The minimum accumulator after the region. -/
theorem final4 (c : Dev nD) :
    (dats (F := Ideal) m 0 c).arrAt 4 cfg0.N = mnA (m ((c : Thread nD τ).loc main_arg0)) := by
  exact (dats (F := Ideal) m 0 c).arrAt_eq_of_cover 4 (mnA (m ((c : Thread nD τ).loc main_arg0))) (flushed4_eq m c) cover4

/-- The maximum accumulator after the region. -/
theorem final5 (c : Dev nD) :
    (dats (F := Ideal) m 0 c).arrAt 5 cfg0.N = mxA (m ((c : Thread nD τ).loc main_arg0)) := by
  exact (dats (F := Ideal) m 0 c).arrAt_eq_of_cover 5 (mxA (m ((c : Thread nD τ).loc main_arg0))) (flushed5_eq m c) cover5

end Cert.Lasd.KernelArrays

end
-- ==== Proof.HostRead.lean ====
/-
  Host operations read at an index, at the extended reals: a minimum, maximum or sum over every axis; a maximum or
  sum over the class axis of a [8, 21, 512, 512] array; and the broadcasts that put a per-pixel array back along
  the class axis.
-/
import Idealize.ShloMosaic.PureOps.Ideal.Laws
import Idealize.ShloMosaic.PureOps.Reduce
import Idealize.ShloMosaic.Lib.ValueIdx
import Idealize.ShloMosaic.Lib.Pipeline.Value

noncomputable section

namespace Cert.Lasd.HostRead

open Idealize.ShloMosaic Idealize.ShloMosaic.ValueIdx

/-- Folding the minimum over a finite set from `b` gives the smaller of `b` and the set's infimum. -/
private theorem fold_minimumf {ι : Type} (S : Finset ι) (b : EReal) (x : ι → EReal) :
    S.fold (FloatOps.minimumf (F := Ideal) (φ := .f32)) b x = min b (S.inf x) := by
  induction S using Finset.cons_induction with
  | empty => simp
  | cons a S ha ih =>
    rw [Finset.fold_cons, Finset.inf_cons, ih]
    exact min_left_comm (x a) b (S.inf x)

/-- Folding the maximum over a finite set from `b` gives the greater of `b` and the set's supremum. -/
private theorem fold_maximumf {ι : Type} (S : Finset ι) (b : EReal) (x : ι → EReal) :
    S.fold (FloatOps.maximumf (F := Ideal) (φ := .f32)) b x = max b (S.sup x) := by
  induction S using Finset.cons_induction with
  | empty => simp
  | cons a S ha ih =>
    rw [Finset.fold_cons, Finset.sup_cons, ih]
    exact max_left_comm (x a) b (S.sup x)

/-- When every axis of the result has size one, every source index drops to the result's one index. -/
private theorem filter_drop_all {s t : Shape} {axes : List (Fin s.rank)} (h : s.ReducesTo axes t)
    (ht : ∀ b, t.size b = 1) (j : t.Idx) :
    (Finset.univ.filter fun i => h.drop i = j) = Finset.univ :=
  Finset.filter_true_of_mem fun i _ => funext fun b => Fin.ext (by
    have := (h.drop i b).isLt; have := (j b).isLt; have := ht b; omega)

/-- A minimum over every axis is the smaller of the initial value and the infimum of the entries. -/
theorem reduce_min_all {s u t : Shape} {axes : List (Fin s.rank)} (x : s.Idx → EReal) (init : u.Idx → EReal)
    (h : s.ReducesTo axes t) (hu : 0 < u.numel) (ht : ∀ b, t.size b = 1) (j : t.Idx) :
    Host.reduce (FloatOps.minimumf (F := Ideal) (φ := .f32)) x init h hu j = min (init (Shape.Idx.first hu)) (⨅ i : s.Idx, x i) := by
  rw [Host.reduce_eq_fold, filter_drop_all h ht j, fold_minimumf, Finset.inf_univ_eq_iInf]

/-- A maximum over every axis is the greater of the initial value and the supremum of the entries. -/
theorem reduce_max_all {s u t : Shape} {axes : List (Fin s.rank)} (x : s.Idx → EReal) (init : u.Idx → EReal)
    (h : s.ReducesTo axes t) (hu : 0 < u.numel) (ht : ∀ b, t.size b = 1) (j : t.Idx) :
    Host.reduce (FloatOps.maximumf (F := Ideal) (φ := .f32)) x init h hu j = max (init (Shape.Idx.first hu)) (⨆ i : s.Idx, x i) := by
  rw [Host.reduce_eq_fold, filter_drop_all h ht j, fold_maximumf, Finset.sup_univ_eq_iSup]

/-! ## The class axis of a [8, 21, 512, 512] array -/

/-- Dropping the class axis of [8, 21, 512, 512] leaves [8, 512, 512]. -/
private theorem reduces_cls :
    (⟨4, ![8, 21, 512, 512]⟩ : Shape).Reduces [1] ⟨3, ![8, 512, 512]⟩ := by decide

/-- The index over pixel (n, y, x) with class c inserted is (n, c, y, x). -/
private theorem lift_cls (n : Fin 8) (y x : Fin 512) (c : Fin 21) :
    reduces_cls.lift (ix3 n y x) c = ix4 n c y x := by
  funext a
  match a with
  | ⟨0, _⟩ => rfl
  | ⟨1, _⟩ => rfl
  | ⟨2, _⟩ => rfl
  | ⟨3, _⟩ => rfl

/-- A sum over the class axis, at pixel (n, y, x): the initial value plus the sum of the 21 entries of the pixel's column. -/
theorem reduceAdd_cls {u : Shape} (v : (⟨4, ![8, 21, 512, 512]⟩ : Shape).Idx → EReal) (init : u.Idx → EReal)
    (h : (⟨4, ![8, 21, 512, 512]⟩ : Shape).ReducesTo [1] ⟨3, ![8, 512, 512]⟩) (hu : 0 < u.numel)
    (n : Fin 8) (y x : Fin 512) :
    Host.reduceAdd (F := Ideal) (φ := .f32) v init h hu (ix3 n y x)
      = init (Shape.Idx.first hu) + ∑ c : Fin 21, v (ix4 n c y x) := by
  show Ideal.hostReduceAdd h v (init (Shape.Idx.first hu)) (ix3 n y x) = _
  rw [Ideal.hostReduceAdd_single h reduces_cls]
  congr 1
  exact Finset.sum_congr rfl fun c _ => congrArg v (lift_cls n y x c)

/-- A maximum over the class axis, at pixel (n, y, x): the fold of max from the initial value over the pixel's column. -/
theorem reduceMax_cls {u : Shape} (v : (⟨4, ![8, 21, 512, 512]⟩ : Shape).Idx → EReal) (init : u.Idx → EReal)
    (h : (⟨4, ![8, 21, 512, 512]⟩ : Shape).ReducesTo [1] ⟨3, ![8, 512, 512]⟩) (hu : 0 < u.numel)
    (n : Fin 8) (y x : Fin 512) :
    Host.reduce (FloatOps.maximumf (F := Ideal) (φ := .f32)) v init h hu (ix3 n y x)
      = Finset.univ.fold max (init (Shape.Idx.first hu)) (fun c : Fin 21 => v (ix4 n c y x)) := by
  rw [Host.reduce_eq_fold_single _ v init h reduces_cls hu]
  have e : (v ∘ reduces_cls.lift (ix3 n y x)) = fun c : Fin 21 => v (ix4 n c y x) :=
    funext fun c => congrArg v (lift_cls n y x c)
  rw [e]
  rfl

/-- A per-pixel array given a unit class axis reads, at (n, 0, y, x), the pixel's entry. -/
theorem bcast_px_apply {α : Type}
    (hb : (⟨3, ![8, 512, 512]⟩ : Shape).BroadcastsInDim ⟨4, ![8, 1, 512, 512]⟩ ![0, 2, 3])
    (a : (⟨3, ![8, 512, 512]⟩ : Shape).Idx → α) (n : Fin 8) (y x : Fin 512) :
    broadcastInDim ⟨4, ![8, 1, 512, 512]⟩ ![0, 2, 3] hb a (ix4 n 0 y x) = a (ix3 n y x) := by
  refine broadcastInDim_apply _ hb a _ (ix3 n y x) fun d => ?_
  match d with
  | ⟨0, _⟩ => rfl
  | ⟨1, _⟩ => rfl
  | ⟨2, _⟩ => rfl

/-- An array with a unit class axis broadcast along the 21 classes reads, at (n, c, y, x), its entry at (n, 0, y, x). -/
theorem bcast_cls_apply {α : Type}
    (hb : (⟨4, ![8, 1, 512, 512]⟩ : Shape).BroadcastsInDim ⟨4, ![8, 21, 512, 512]⟩ ![0, 1, 2, 3])
    (a : (⟨4, ![8, 1, 512, 512]⟩ : Shape).Idx → α) (n : Fin 8) (c : Fin 21) (y x : Fin 512) :
    broadcastInDim ⟨4, ![8, 21, 512, 512]⟩ ![0, 1, 2, 3] hb a (ix4 n c y x) = a (ix4 n 0 y x) := by
  refine broadcastInDim_apply _ hb a _ (ix4 n 0 y x) fun d => ?_
  match d with
  | ⟨0, _⟩ => rfl
  | ⟨1, _⟩ => rfl
  | ⟨2, _⟩ => rfl
  | ⟨3, _⟩ => rfl

/-- A scalar broadcast to any shape reads the scalar at every index. -/
theorem bcast_scalar_apply {α : Type} {S : Shape} (hb : (⟨0, ![]⟩ : Shape).BroadcastsInDim S ![])
    (a : (⟨0, ![]⟩ : Shape).Idx → α) (j : S.Idx) :
    broadcastInDim S ![] hb a j = a ix0 := by
  unfold broadcastInDim
  exact congrArg a (funext fun d => d.elim0)

end Cert.Lasd.HostRead

end
-- ==== Proof.KernelValue.lean ====
/-
  The first program's run, read: after the region the four arrays hold σ, the focal sums and the per-image
  extremes; the host lines after it take the batch's minimum and maximum off the accumulators, scale σ, form
  β = exp (-s) + 1, weight the focal sums and average.
-/
import proofs.«423354_j53180285059887_3_alg».proof.Proof.KernelArrays23
import proofs.«423354_j53180285059887_3_alg».proof.Proof.KernelArrays45
import proofs.«423354_j53180285059887_3_alg».proof.Proof.HostRead

noncomputable section

namespace Cert.Lasd.KernelSide

open Idealize.ShloMosaic Idealize.ShloMosaic.ValueIdx Idealize.ShloMosaic.TcCoe Idealize.SL.Sem
open Cert.KernelIdeal Cert.KernelIdeal.Gen Cert.Lasd

/-! ## The two infinities -/

private theorem kPosInf_eq : kPosInf = ⊤ := by simp [Ideal.ofBits, Ideal.ieee]
private theorem kNegInf_eq : kNegInf = ⊥ := by simp [Ideal.ofBits, Ideal.ieee]

/-! ## The host lines over abstract arrays -/

/-- The minimum over every entry of an accumulator, from +∞: the infimum of its entries. -/
private theorem tail_min (mn : IA → EReal) (j : I0) :
    Host.reduce (FloatOps.minimumf (F := Ideal) (φ := .f32)) mn (constant (F := Ideal) S_ .f32 0x7F800000#32)
      reducesTo_S8x8x128_S_d0_1_2 h_S_ j = ⨅ i : IA, mn i := by
  rw [HostRead.reduce_min_all mn _ reducesTo_S8x8x128_S_d0_1_2 h_S_ (fun b => b.elim0) j]
  show min kPosInf _ = _
  rw [kPosInf_eq, min_eq_right le_top]

/-- The maximum over every entry of an accumulator, from -∞: the supremum of its entries. -/
private theorem tail_max (mx : IA → EReal) (j : I0) :
    Host.reduce (FloatOps.maximumf (F := Ideal) (φ := .f32)) mx (constant (F := Ideal) S_ .f32 0xFF800000#32)
      reducesTo_S8x8x128_S_d0_1_2 h_S_ j = ⨆ i : IA, mx i := by
  rw [HostRead.reduce_max_all mx _ reducesTo_S8x8x128_S_d0_1_2 h_S_ (fun b => b.elim0) j]
  show max kNegInf _ = _
  rw [kNegInf_eq, max_eq_right bot_le]

/-- The scaled array: σ less the least entry, over the greatest less the least. -/
private theorem tail7 (σ : I3 → EReal) (mn mx : IA → EReal) :
    Host.divf (F := Ideal) (φ := .f32)
      (subf σ (broadcastInDim S8x512x512 ![] bcast_S_S8x512x512
        (Host.reduce (FloatOps.minimumf (F := Ideal) (φ := .f32)) mn (constant (F := Ideal) S_ .f32 0x7F800000#32) reducesTo_S8x8x128_S_d0_1_2 h_S_)))
      (broadcastInDim S8x512x512 ![] bcast_S_S8x512x512
        (subf
          (Host.reduce (FloatOps.maximumf (F := Ideal) (φ := .f32)) mx (constant (F := Ideal) S_ .f32 0xFF800000#32) reducesTo_S8x8x128_S_d0_1_2 h_S_)
          (Host.reduce (FloatOps.minimumf (F := Ideal) (φ := .f32)) mn (constant (F := Ideal) S_ .f32 0x7F800000#32) reducesTo_S8x8x128_S_d0_1_2 h_S_)))
      = fun i => Ideal.div (σ i - ⨅ k : IA, mn k) ((⨆ k : IA, mx k) - ⨅ k : IA, mn k) := by
  funext i
  simp only [Host.divf, subf, broadcastInDim, Ideal.hostDivf_def, Ideal.subf_def, tail_min, tail_max]

/-- The loss: the focal sums weighted by exp (-s) + 1, summed from zero over every pixel, over the count. -/
private theorem tail14 (s fs : I3 → EReal) :
    Host.divf (F := Ideal) (φ := .f32)
      (Host.reduceAdd
        (mulf (addf (Host.exp (Host.negf s)) (broadcastInDim S8x512x512 ![] bcast_S_S8x512x512 (constant (F := Ideal) S_ .f32 0x3F800000#32))) fs)
        (constant (F := Ideal) S_ .f32 0x00000000#32) reducesTo_S8x512x512_S_d0_1_2 h_S_)
      (constant (F := Ideal) S_ .f32 0x4C280000#32)
      = fun _ => Ideal.div (kZero + ∑ i : I3, (Ideal.exp (-(s i)) + kOne) * fs i) kCount := by
  funext j
  simp only [Host.divf, Host.reduceAdd, Ideal.hostDivf_def, Ideal.hostReduceAdd_def]
  rw [Ideal.hostReduceAdd_total reducesTo_S8x512x512_S_d0_1_2 (fun b => b.elim0)]
  rfl

/-! ## The batch's extremes off the per-image accumulators -/

/-- The infimum of the per-image minima over an accumulator's entries is the infimum over every pixel. -/
private theorem iInf_mnA (X : I4 → EReal) : (⨅ k : IA, mnA X k) = sMin X := by
  unfold sMin mnA rowMin
  apply le_antisymm
  · refine le_iInf fun i => ?_
    rw [eq_ix3 i]
    exact iInf_le_of_le (ix3 (i 0) (0 : Fin 8) (0 : Fin 128)) (iInf_le_of_le (i 1) (iInf_le _ (i 2)))
  · exact le_iInf fun k => le_iInf fun y => le_iInf fun x => iInf_le _ _

/-- Likewise the supremum of the per-image maxima. -/
private theorem iSup_mxA (X : I4 → EReal) : (⨆ k : IA, mxA X k) = sMax X := by
  unfold sMax mxA rowMax
  apply le_antisymm
  · exact iSup_le fun k => iSup_le fun y => iSup_le fun x => le_iSup _ _
  · refine iSup_le fun i => ?_
    rw [eq_ix3 i]
    exact le_iSup_of_le (ix3 (i 0) (0 : Fin 8) (0 : Fin 128)) (le_iSup_of_le (i 1) (le_iSup_of_le (i 2) le_rfl))

/-! ## The tail at the arrays the region leaves -/

variable (m : (ℓ : Loc nD τ sig) → Buf (Elt Ideal) ℓ)

/-- The contents the host lines start from, at the σ array. -/
private theorem w0 (c : Dev nD) :
    Pipeline.withArrays (cfgs 0).spec c (V0 m c) (fun w => (dats (F := Ideal) m 0 c).arrAt w (cfgs 0).N) (Proc.devRef .tc main_v0_0)
      = sigA (m ((c : Thread nD τ).loc main_arg0)) :=
  (Pipeline.withArrays_arr spec0 launch0.win.arr_inj c _ _ 2).trans (KernelArrays.final2 m c)

/-- … at the focal-sum array. -/
private theorem w1 (c : Dev nD) :
    Pipeline.withArrays (cfgs 0).spec c (V0 m c) (fun w => (dats (F := Ideal) m 0 c).arrAt w (cfgs 0).N) (Proc.devRef .tc main_v0_1)
      = fsA (m ((c : Thread nD τ).loc main_arg0)) (m ((c : Thread nD τ).loc main_arg1)) :=
  (Pipeline.withArrays_arr spec0 launch0.win.arr_inj c _ _ 3).trans (KernelArrays.final3 m c)

/-- … at the accumulator of the minima. -/
private theorem w2 (c : Dev nD) :
    Pipeline.withArrays (cfgs 0).spec c (V0 m c) (fun w => (dats (F := Ideal) m 0 c).arrAt w (cfgs 0).N) (Proc.devRef .tc main_v0_2)
      = mnA (m ((c : Thread nD τ).loc main_arg0)) :=
  (Pipeline.withArrays_arr spec0 launch0.win.arr_inj c _ _ 4).trans (KernelArrays.final4 m c)

/-- … at the accumulator of the maxima. -/
private theorem w3 (c : Dev nD) :
    Pipeline.withArrays (cfgs 0).spec c (V0 m c) (fun w => (dats (F := Ideal) m 0 c).arrAt w (cfgs 0).N) (Proc.devRef .tc main_v0_3)
      = mxA (m ((c : Thread nD τ).loc main_arg0)) :=
  (Pipeline.withArrays_arr spec0 launch0.win.arr_inj c _ _ 5).trans (KernelArrays.final5 m c)

/-- The scaled σ as the host lines leave it. -/
private theorem tail_v7 (c : Dev nD) :
    Pipeline.afterTail₀ cfgs (dats (F := Ideal) m) 0 (V0 m) [hostOps1] c main_v7
      = scaledA (m ((c : Thread nD τ).loc main_arg0)) := by
  unfold Pipeline.afterTail₀
  show StableHlo.after hostOps1 _ (Proc.devRef .tc main_v7) = _
  after_results
  rw [w0 m c, w2 m c, w3 m c, tail7, iInf_mnA, iSup_mxA]
  rfl

/-- The loss as the host lines leave it. -/
private theorem tail_v14 (c : Dev nD) :
    Pipeline.afterTail₀ cfgs (dats (F := Ideal) m) 0 (V0 m) [hostOps1] c main_v14
      = fun _ => lossK (m ((c : Thread nD τ).loc main_arg0)) (m ((c : Thread nD τ).loc main_arg1)) := by
  unfold Pipeline.afterTail₀
  show StableHlo.after hostOps1 _ (Proc.devRef .tc main_v14) = _
  after_results
  rw [w0 m c, w1 m c, w2 m c, w3 m c]
  refine (tail14 _ _).trans ?_
  rw [tail7, iInf_mnA, iSup_mxA]
  rfl

/-- Every weakly fair execution of the first program ends with the loss and the scaled σ of its argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = (fun _ => lossK (m ((c.tc : Thread nD τ).loc main_arg0)) (m ((c.tc : Thread nD τ).loc main_arg1)))
      ∧ r.2.mem ((c.tc : Thread nD τ).loc main_v7) = scaledA (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 rfl (by decide))).trans (tail_v14 m c),
     ((h c).2 main_v7 (Pipeline.mem_restRefs_of main_v7 rfl (by decide))).trans (tail_v7 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main (F := Ideal) m ρ)

end Cert.Lasd.KernelSide

end
-- ==== Proof.RefTerm.lean ====
/-
  The second program's two results as terms of its argument arrays: its host operations composed.
-/
import proofs.«423354_j53180285059887_3_alg».proof.Proof.Gen.ReferenceIdeal
import proofs.«423354_j53180285059887_3_alg».proof.Proof.Spec

noncomputable section

namespace Cert.Lasd.RefSide

open Idealize.ShloMosaic Cert.ReferenceIdeal Cert.ReferenceIdeal.Facts₀

/-- exp of every logit shifted by its column's maximum (the maximum folded from -∞ and once more clamped from below by -∞). -/
def refExp (X : FVec Ideal S8x21x512x512 .f32) : FVec Ideal S8x21x512x512 .f32 :=
  Host.exp (F := Ideal)
    (subf X
      (broadcastInDim S8x21x512x512 ![0, 1, 2, 3] bcast_S8x1x512x512_S8x21x512x512_0_1_2_3
        (broadcastInDim S8x1x512x512 ![0, 2, 3] bcast_S8x512x512_S8x1x512x512_0_2_3
          (maximumf
            (broadcastInDim S8x512x512 ![] bcast_S_S8x512x512 (constant (F := Ideal) S_ .f32 0xFF800000#32))
            (Host.reduce (FloatOps.maximumf (F := Ideal) (φ := .f32)) X (constant (F := Ideal) S_ .f32 0xFF800000#32)
              reducesTo_S8x21x512x512_S8x512x512_d1 h_S_)))))

/-- p: the shifted exponentials over their column sum, plus ε. -/
def refP (X : FVec Ideal S8x21x512x512 .f32) : FVec Ideal S8x21x512x512 .f32 :=
  addf
    (Host.divf (F := Ideal) (refExp X)
      (broadcastInDim S8x21x512x512 ![0, 1, 2, 3] bcast_S8x1x512x512_S8x21x512x512_0_1_2_3
        (broadcastInDim S8x1x512x512 ![0, 2, 3] bcast_S8x512x512_S8x1x512x512_0_2_3
          (Host.reduceAdd (F := Ideal) (refExp X) (constant (F := Ideal) S_ .f32 0x00000000#32)
            reducesTo_S8x21x512x512_S8x512x512_d1 h_S_))))
    (broadcastInDim S8x21x512x512 ![] bcast_S_S8x21x512x512 (constant (F := Ideal) S_ .f32 0x322BCC77#32))

/-- The divisor of the variance: 21 minus the correction 1, the correction an integer read as a float. -/
def refDof : FVec Ideal S_ .f32 :=
  subf (constant (F := Ideal) S_ .f32 0x41A80000#32) (sitofp (F := Ideal) .f32 (constantI S_ 32 1#32))

/-- The sum over each column of the squared deviations of p from the column's mean. -/
def refSqDev (X : FVec Ideal S8x21x512x512 .f32) : FVec Ideal S8x512x512 .f32 :=
  Host.reduceAdd (F := Ideal)
    (mulf
      (subf (refP X)
        (broadcastInDim S8x21x512x512 ![0, 1, 2, 3] bcast_S8x1x512x512_S8x21x512x512_0_1_2_3
          (Host.divf (F := Ideal)
            (broadcastInDim S8x1x512x512 ![0, 2, 3] bcast_S8x512x512_S8x1x512x512_0_2_3
              (Host.reduceAdd (F := Ideal) (refP X) (constant (F := Ideal) S_ .f32 0x00000000#32)
                reducesTo_S8x21x512x512_S8x512x512_d1 h_S_))
            (broadcastInDim S8x1x512x512 ![] bcast_S_S8x1x512x512 (constant (F := Ideal) S_ .f32 0x41A80000#32)))))
      (subf (refP X)
        (broadcastInDim S8x21x512x512 ![0, 1, 2, 3] bcast_S8x1x512x512_S8x21x512x512_0_1_2_3
          (Host.divf (F := Ideal)
            (broadcastInDim S8x1x512x512 ![0, 2, 3] bcast_S8x512x512_S8x1x512x512_0_2_3
              (Host.reduceAdd (F := Ideal) (refP X) (constant (F := Ideal) S_ .f32 0x00000000#32)
                reducesTo_S8x21x512x512_S8x512x512_d1 h_S_))
            (broadcastInDim S8x1x512x512 ![] bcast_S_S8x1x512x512 (constant (F := Ideal) S_ .f32 0x41A80000#32))))))
    (constant (F := Ideal) S_ .f32 0x00000000#32) reducesTo_S8x21x512x512_S8x512x512_d1 h_S_

/-- σ: the square root of the variance, the variance selected against a not-a-number word where the divisor is not positive. -/
def refSig (X : FVec Ideal S8x21x512x512 .f32) : FVec Ideal S8x512x512 .f32 :=
  Host.sqrt (F := Ideal)
    (select
      (broadcastInDim S8x512x512 ![] bcast_S_S8x512x512
        (cmpf (F := Ideal) .ogt refDof (constant (F := Ideal) S_ .f32 0x00000000#32)))
      (Host.divf (F := Ideal) (refSqDev X) (broadcastInDim S8x512x512 ![] bcast_S_S8x512x512 refDof))
      (broadcastInDim S8x512x512 ![] bcast_S_S8x512x512 (id (constant (F := Ideal) S_ .f32 0x7FC00000#32))))

/-- The least σ of the batch, folded from +∞. -/
def refMin (X : FVec Ideal S8x21x512x512 .f32) : FVec Ideal S_ .f32 :=
  Host.reduce (FloatOps.minimumf (F := Ideal) (φ := .f32)) (refSig X) (constant (F := Ideal) S_ .f32 0x7F800000#32)
    reducesTo_S8x512x512_S_d0_1_2 h_S_

/-- The greatest σ of the batch, folded from -∞. -/
def refMax (X : FVec Ideal S8x21x512x512 .f32) : FVec Ideal S_ .f32 :=
  Host.reduce (FloatOps.maximumf (F := Ideal) (φ := .f32)) (refSig X) (constant (F := Ideal) S_ .f32 0xFF800000#32)
    reducesTo_S8x512x512_S_d0_1_2 h_S_

/-- σ scaled by its extremes, as the second program computes it. -/
def refScaled (X : FVec Ideal S8x21x512x512 .f32) : FVec Ideal S8x512x512 .f32 :=
  Host.divf (F := Ideal)
    (subf (refSig X) (broadcastInDim S8x512x512 ![] bcast_S_S8x512x512 (refMin X)))
    (broadcastInDim S8x512x512 ![] bcast_S_S8x512x512 (subf (refMax X) (refMin X)))

/-- β: one over exp of the scaled σ, plus one. -/
def refBeta (X : FVec Ideal S8x21x512x512 .f32) : FVec Ideal S8x512x512 .f32 :=
  addf
    (Host.divf (F := Ideal)
      (broadcastInDim S8x512x512 ![] bcast_S_S8x512x512 (constant (F := Ideal) S_ .f32 0x3F800000#32))
      (Host.exp (F := Ideal) (refScaled X)))
    (broadcastInDim S8x512x512 ![] bcast_S_S8x512x512 (constant (F := Ideal) S_ .f32 0x3F800000#32))

/-- The smoothed one-hot weights: the label compared with the class numbers 0 … 30, the test read as a float, plus δ,
    cut to the first 21 classes. -/
def refOneHot (T : IVec S8x512x512 32) : FVec Ideal S8x21x512x512 .f32 :=
  extractStridedSlice S8x21x512x512 ![0, 0, 0, 0]
    (addf
      (uitofp (F := Ideal) .f32
        (cmpi .eq
          (broadcastInDim S8x31x512x512 ![0, 1, 2, 3] bcast_S8x1x512x512_S8x31x512x512_0_1_2_3
            (broadcastInDim S8x1x512x512 ![0, 2, 3] bcast_S8x512x512_S8x1x512x512_0_2_3 T))
          (broadcastInDim S8x31x512x512 ![0, 1, 2, 3] bcast_S1x31x1x1_S8x31x512x512_0_1_2_3
            (iotaInDim S1x31x1x1 32 1))))
      (broadcastInDim S8x31x512x512 ![] bcast_S_S8x31x512x512 (constant (F := Ideal) S_ .f32 0x358637BD#32)))
    slices_S8x31x512x512_S8x21x512x512_0_0_0_0

/-- The loss, as the second program computes it. -/
def refLoss (X : FVec Ideal S8x21x512x512 .f32) (T : IVec S8x512x512 32) : FVec Ideal S_ .f32 :=
  Host.divf (F := Ideal)
    (Host.reduceAdd (F := Ideal)
      (mulf (refOneHot T)
        (mulf
          (mulf
            (mulf
              (broadcastInDim S8x21x512x512 ![] bcast_S_S8x21x512x512 (constant (F := Ideal) S_ .f32 0xBE800000#32))
              (Host.powf (F := Ideal)
                (subf
                  (broadcastInDim S8x21x512x512 ![] bcast_S_S8x21x512x512 (constant (F := Ideal) S_ .f32 0x3F800000#32))
                  (refP X))
                (broadcastInDim S8x21x512x512 ![] bcast_S_S8x21x512x512 (constant (F := Ideal) S_ .f32 0x40000000#32))))
            (Host.log (F := Ideal) (refP X)))
          (broadcastInDim S8x21x512x512 ![0, 1, 2, 3] bcast_S8x1x512x512_S8x21x512x512_0_1_2_3
            (broadcastInDim S8x1x512x512 ![0, 2, 3] bcast_S8x512x512_S8x1x512x512_0_2_3 (refBeta X)))))
      (constant (F := Ideal) S_ .f32 0x00000000#32) reducesTo_S8x21x512x512_S_d0_1_2_3 h_S_)
    (constant (F := Ideal) S_ .f32 0x4C280000#32)

end Cert.Lasd.RefSide

end
-- ==== Proof.RefRun.lean ====
/-
  The second program's run: a straight line of host operations (three of them calls of functions that are
  themselves straight lines); every weakly fair execution ends, each result at its term of the arguments.
-/
import proofs.«423354_j53180285059887_3_alg».proof.Proof.RefTerm
import Idealize.ShloMosaic.Lib.StableHlo.Run
import Idealize.ShloMosaic.Lib.Pipeline.Regions

noncomputable section

namespace Cert.Lasd.RefSide

open Idealize.ShloMosaic Idealize.ShloMosaic.TcCoe Idealize.SL.Sem Cert.ReferenceIdeal

section Line

open Idealize.ShloMosaic.StableHlo Cert.ReferenceIdeal.Facts₀

variable {F : FTy → Type} [FloatOps F]

/-- The program as one list of its 86 operations, in order: the eighteen up to p and the integer 1; the variance's
    twenty with the select's three inside them and the square root after; the sixteen from the two extremes to β;
    the one-hot's six; the twenty-three from δ to the loss. Each function's operations stand at its call, over
    that call's own buffers. -/
abbrev refOps : List (HloOp τ sig (Elt F)) :=
  [
    StableHlo.nullary main_cst (constant S_ .f32 0xFF800000#32),
    StableHlo.binary main_arg0 main_cst main_v0 ((fun x v => Host.reduce FloatOps.maximumf x v reducesTo_S8x21x512x512_S8x512x512_d1 h_S_) : (⟨S8x21x512x512, .f32⟩ : BufTy).Contents (Elt F) → (⟨S_, .f32⟩ : BufTy).Contents (Elt F) → (⟨S8x512x512, .f32⟩ : BufTy).Contents (Elt F)),
    StableHlo.nullary main_cst_0 (constant S_ .f32 0xFF800000#32),
    StableHlo.unary main_cst_0 main_v1 (broadcastInDim S8x512x512 ![] bcast_S_S8x512x512 : (⟨S_, .f32⟩ : BufTy).Contents (Elt F) → (⟨S8x512x512, .f32⟩ : BufTy).Contents (Elt F)),
    StableHlo.binary main_v1 main_v0 main_v2 (maximumf : (⟨S8x512x512, .f32⟩ : BufTy).Contents (Elt F) → (⟨S8x512x512, .f32⟩ : BufTy).Contents (Elt F) → (⟨S8x512x512, .f32⟩ : BufTy).Contents (Elt F)),
    StableHlo.unary main_v2 main_v3 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    StableHlo.unary main_v3 main_v4 (broadcastInDim S8x21x512x512 ![0, 1, 2, 3] bcast_S8x1x512x512_S8x21x512x512_0_1_2_3 : (⟨S8x1x512x512, .f32⟩ : BufTy).Contents (Elt F) → (⟨S8x21x512x512, .f32⟩ : BufTy).Contents (Elt F)),
    StableHlo.binary main_arg0 main_v4 main_v5 (subf : (⟨S8x21x512x512, .f32⟩ : BufTy).Contents (Elt F) → (⟨S8x21x512x512, .f32⟩ : BufTy).Contents (Elt F) → (⟨S8x21x512x512, .f32⟩ : BufTy).Contents (Elt F)),
    StableHlo.unary main_v5 main_v6 (Host.exp : (⟨S8x21x512x512, .f32⟩ : BufTy).Contents (Elt F) → (⟨S8x21x512x512, .f32⟩ : BufTy).Contents (Elt F)),
    StableHlo.nullary main_cst_1 (constant S_ .f32 0x00000000#32),
    StableHlo.binary main_v6 main_cst_1 main_v7 ((fun x v => Host.reduceAdd x v reducesTo_S8x21x512x512_S8x512x512_d1 h_S_) : (⟨S8x21x512x512, .f32⟩ : BufTy).Contents (Elt F) → (⟨S_, .f32⟩ : BufTy).Contents (Elt F) → (⟨S8x512x512, .f32⟩ : BufTy).Contents (Elt F)),
    StableHlo.unary main_v7 main_v8 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    StableHlo.unary main_v8 main_v9 (broadcastInDim S8x21x512x512 ![0, 1, 2, 3] bcast_S8x1x512x512_S8x21x512x512_0_1_2_3 : (⟨S8x1x512x512, .f32⟩ : BufTy).Contents (Elt F) → (⟨S8x21x512x512, .f32⟩ : BufTy).Contents (Elt F)),
    StableHlo.binary main_v6 main_v9 main_v10 (Host.divf : (⟨S8x21x512x512, .f32⟩ : BufTy).Contents (Elt F) → (⟨S8x21x512x512, .f32⟩ : BufTy).Contents (Elt F) → (⟨S8x21x512x512, .f32⟩ : BufTy).Contents (Elt F)),
    StableHlo.nullary main_cst_2 (constant S_ .f32 0x322BCC77#32),
    StableHlo.unary main_cst_2 main_v11 (broadcastInDim S8x21x512x512 ![] bcast_S_S8x21x512x512 : (⟨S_, .f32⟩ : BufTy).Contents (Elt F) → (⟨S8x21x512x512, .f32⟩ : BufTy).Contents (Elt F)),
    StableHlo.binary main_v10 main_v11 main_v12 (addf : (⟨S8x21x512x512, .f32⟩ : BufTy).Contents (Elt F) → (⟨S8x21x512x512, .f32⟩ : BufTy).Contents (Elt F) → (⟨S8x21x512x512, .f32⟩ : BufTy).Contents (Elt F)),
    StableHlo.nullary main_c (constantI S_ 32 1#32),
    StableHlo.TRef.nullary main_call0.call0.cst (constant S_ .f32 0x00000000#32),
    StableHlo.TRef.binary (.of main_v12 : TRef sig ⟨S8x21x512x512, .f32⟩) main_call0.call0.cst main_call0.call0.v0 (fun x v => Host.reduceAdd x v reducesTo_S8x21x512x512_S8x512x512_d1 h_S_),
    StableHlo.TRef.unary main_call0.call0.v0 main_call0.call0.v1 (broadcastInDim S8x1x512x512 ![0, 2, 3] bcast_S8x512x512_S8x1x512x512_0_2_3),
    StableHlo.TRef.nullary main_call0.call0.cst_0 (constant S_ .f32 0x41A80000#32),
    StableHlo.TRef.unary main_call0.call0.cst_0 main_call0.call0.v2 (broadcastInDim S8x1x512x512 ![] bcast_S_S8x1x512x512),
    StableHlo.TRef.binary main_call0.call0.v1 main_call0.call0.v2 main_call0.call0.v3 Host.divf,
    StableHlo.TRef.unary main_call0.call0.v3 main_call0.call0.v4 (broadcastInDim S8x21x512x512 ![0, 1, 2, 3] bcast_S8x1x512x512_S8x21x512x512_0_1_2_3),
    StableHlo.TRef.binary (.of main_v12 : TRef sig ⟨S8x21x512x512, .f32⟩) main_call0.call0.v4 main_call0.call0.v5 subf,
    StableHlo.TRef.binary main_call0.call0.v5 main_call0.call0.v5 main_call0.call0.v6 mulf,
    StableHlo.TRef.unary (.of main_c : TRef sig ⟨S_, .i32⟩) main_call0.call0.v7 (sitofp .f32),
    StableHlo.TRef.nullary main_call0.call0.cst_1 (constant S_ .f32 0x41A80000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8x21x512x512_S8x512x512_d1 h_S_),
    StableHlo.TRef.unary main_call0.call0.v8 main_call0.call0.v10 (broadcastInDim S8x512x512 ![] bcast_S_S8x512x512),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S8x512x512 ![] bcast_S_S8x512x512),
    StableHlo.TRef.ternary main_call0.call0.v12 main_call0.call0.v11 main_call0.call0.call0.v1 main_call0.call0.call0.v2 (fun p a b => select (broadcastInDim S8x512x512 ![] bcast_S_S8x512x512 p) a b),
    StableHlo.TRef.unary main_call0.call0.call0.v2 main_call0.v1 Host.sqrt,
    StableHlo.nullary main_cst_3 (constant S_ .f32 0x7F800000#32),
    StableHlo.binary main_v13 main_cst_3 main_v14 ((fun x v => Host.reduce FloatOps.minimumf x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    StableHlo.nullary main_cst_4 (constant S_ .f32 0xFF800000#32),
    StableHlo.binary main_v13 main_cst_4 main_v15 ((fun x v => Host.reduce FloatOps.maximumf x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    StableHlo.unary main_v14 main_v16 (broadcastInDim S8x512x512 ![] bcast_S_S8x512x512 : (⟨S_, .f32⟩ : BufTy).Contents (Elt F) → (⟨S8x512x512, .f32⟩ : BufTy).Contents (Elt F)),
    StableHlo.binary main_v13 main_v16 main_v17 (subf : (⟨S8x512x512, .f32⟩ : BufTy).Contents (Elt F) → (⟨S8x512x512, .f32⟩ : BufTy).Contents (Elt F) → (⟨S8x512x512, .f32⟩ : BufTy).Contents (Elt F)),
    StableHlo.binary main_v15 main_v14 main_v18 (subf : (⟨S_, .f32⟩ : BufTy).Contents (Elt F) → (⟨S_, .f32⟩ : BufTy).Contents (Elt F) → (⟨S_, .f32⟩ : BufTy).Contents (Elt F)),
    StableHlo.unary main_v18 main_v19 (broadcastInDim S8x512x512 ![] bcast_S_S8x512x512 : (⟨S_, .f32⟩ : BufTy).Contents (Elt F) → (⟨S8x512x512, .f32⟩ : BufTy).Contents (Elt F)),
    StableHlo.binary main_v17 main_v19 main_v20 (Host.divf : (⟨S8x512x512, .f32⟩ : BufTy).Contents (Elt F) → (⟨S8x512x512, .f32⟩ : BufTy).Contents (Elt F) → (⟨S8x512x512, .f32⟩ : BufTy).Contents (Elt F)),
    StableHlo.unary main_v20 main_v21 (Host.exp : (⟨S8x512x512, .f32⟩ : BufTy).Contents (Elt F) → (⟨S8x512x512, .f32⟩ : BufTy).Contents (Elt F)),
    StableHlo.nullary main_cst_5 (constant S_ .f32 0x3F800000#32),
    StableHlo.unary main_cst_5 main_v22 (broadcastInDim S8x512x512 ![] bcast_S_S8x512x512 : (⟨S_, .f32⟩ : BufTy).Contents (Elt F) → (⟨S8x512x512, .f32⟩ : BufTy).Contents (Elt F)),
    StableHlo.binary main_v22 main_v21 main_v23 (Host.divf : (⟨S8x512x512, .f32⟩ : BufTy).Contents (Elt F) → (⟨S8x512x512, .f32⟩ : BufTy).Contents (Elt F) → (⟨S8x512x512, .f32⟩ : BufTy).Contents (Elt F)),
    StableHlo.nullary main_cst_6 (constant S_ .f32 0x3F800000#32),
    StableHlo.unary main_cst_6 main_v24 (broadcastInDim S8x512x512 ![] bcast_S_S8x512x512 : (⟨S_, .f32⟩ : BufTy).Contents (Elt F) → (⟨S8x512x512, .f32⟩ : BufTy).Contents (Elt F)),
    StableHlo.binary main_v23 main_v24 main_v25 (addf : (⟨S8x512x512, .f32⟩ : BufTy).Contents (Elt F) → (⟨S8x512x512, .f32⟩ : BufTy).Contents (Elt F) → (⟨S8x512x512, .f32⟩ : BufTy).Contents (Elt F)),
    StableHlo.TRef.unary (.of main_arg1 : TRef sig ⟨S8x512x512, .i32⟩) main_call1.v0 (broadcastInDim S8x1x512x512 ![0, 2, 3] bcast_S8x512x512_S8x1x512x512_0_2_3),
    StableHlo.TRef.nullary main_call1.v1 (iotaInDim S1x31x1x1 32 1),
    StableHlo.TRef.unary main_call1.v0 main_call1.v2 (broadcastInDim S8x31x512x512 ![0, 1, 2, 3] bcast_S8x1x512x512_S8x31x512x512_0_1_2_3),
    StableHlo.TRef.unary main_call1.v1 main_call1.v3 (broadcastInDim S8x31x512x512 ![0, 1, 2, 3] bcast_S1x31x1x1_S8x31x512x512_0_1_2_3),
    StableHlo.TRef.binary main_call1.v2 main_call1.v3 main_call1.v4 (cmpi .eq),
    StableHlo.TRef.unary main_call1.v4 main_call1.v5 (uitofp .f32),
    StableHlo.nullary main_cst_7 (constant S_ .f32 0x358637BD#32),
    StableHlo.unary main_cst_7 main_v27 (broadcastInDim S8x31x512x512 ![] bcast_S_S8x31x512x512 : (⟨S_, .f32⟩ : BufTy).Contents (Elt F) → (⟨S8x31x512x512, .f32⟩ : BufTy).Contents (Elt F)),
    StableHlo.binary main_v26 main_v27 main_v28 (addf : (⟨S8x31x512x512, .f32⟩ : BufTy).Contents (Elt F) → (⟨S8x31x512x512, .f32⟩ : BufTy).Contents (Elt F) → (⟨S8x31x512x512, .f32⟩ : BufTy).Contents (Elt F)),
    StableHlo.unary main_v28 main_v29 ((extractStridedSlice S8x21x512x512 ![0, 0, 0, 0] · slices_S8x31x512x512_S8x21x512x512_0_0_0_0) : (⟨S8x31x512x512, .f32⟩ : BufTy).Contents (Elt F) → (⟨S8x21x512x512, .f32⟩ : BufTy).Contents (Elt F)),
    StableHlo.nullary main_cst_8 (constant S_ .f32 0x3F800000#32),
    StableHlo.unary main_cst_8 main_v30 (broadcastInDim S8x21x512x512 ![] bcast_S_S8x21x512x512 : (⟨S_, .f32⟩ : BufTy).Contents (Elt F) → (⟨S8x21x512x512, .f32⟩ : BufTy).Contents (Elt F)),
    StableHlo.binary main_v30 main_v12 main_v31 (subf : (⟨S8x21x512x512, .f32⟩ : BufTy).Contents (Elt F) → (⟨S8x21x512x512, .f32⟩ : BufTy).Contents (Elt F) → (⟨S8x21x512x512, .f32⟩ : BufTy).Contents (Elt F)),
    StableHlo.nullary main_cst_9 (constant S_ .f32 0x40000000#32),
    StableHlo.unary main_cst_9 main_v32 (broadcastInDim S8x21x512x512 ![] bcast_S_S8x21x512x512 : (⟨S_, .f32⟩ : BufTy).Contents (Elt F) → (⟨S8x21x512x512, .f32⟩ : BufTy).Contents (Elt F)),
    StableHlo.binary main_v31 main_v32 main_v33 (Host.powf : (⟨S8x21x512x512, .f32⟩ : BufTy).Contents (Elt F) → (⟨S8x21x512x512, .f32⟩ : BufTy).Contents (Elt F) → (⟨S8x21x512x512, .f32⟩ : BufTy).Contents (Elt F)),
    StableHlo.nullary main_cst_10 (constant S_ .f32 0xBE800000#32),
    StableHlo.unary main_cst_10 main_v34 (broadcastInDim S8x21x512x512 ![] bcast_S_S8x21x512x512 : (⟨S_, .f32⟩ : BufTy).Contents (Elt F) → (⟨S8x21x512x512, .f32⟩ : BufTy).Contents (Elt F)),
    StableHlo.binary main_v34 main_v33 main_v35 (mulf : (⟨S8x21x512x512, .f32⟩ : BufTy).Contents (Elt F) → (⟨S8x21x512x512, .f32⟩ : BufTy).Contents (Elt F) → (⟨S8x21x512x512, .f32⟩ : BufTy).Contents (Elt F)),
    StableHlo.unary main_v12 main_v36 (Host.log : (⟨S8x21x512x512, .f32⟩ : BufTy).Contents (Elt F) → (⟨S8x21x512x512, .f32⟩ : BufTy).Contents (Elt F)),
    StableHlo.binary main_v35 main_v36 main_v37 (mulf : (⟨S8x21x512x512, .f32⟩ : BufTy).Contents (Elt F) → (⟨S8x21x512x512, .f32⟩ : BufTy).Contents (Elt F) → (⟨S8x21x512x512, .f32⟩ : BufTy).Contents (Elt F)),
    StableHlo.unary main_v25 main_v38 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    StableHlo.unary main_v38 main_v39 (broadcastInDim S8x21x512x512 ![0, 1, 2, 3] bcast_S8x1x512x512_S8x21x512x512_0_1_2_3 : (⟨S8x1x512x512, .f32⟩ : BufTy).Contents (Elt F) → (⟨S8x21x512x512, .f32⟩ : BufTy).Contents (Elt F)),
    StableHlo.binary main_v37 main_v39 main_v40 (mulf : (⟨S8x21x512x512, .f32⟩ : BufTy).Contents (Elt F) → (⟨S8x21x512x512, .f32⟩ : BufTy).Contents (Elt F) → (⟨S8x21x512x512, .f32⟩ : BufTy).Contents (Elt F)),
    StableHlo.binary main_v29 main_v40 main_v41 (mulf : (⟨S8x21x512x512, .f32⟩ : BufTy).Contents (Elt F) → (⟨S8x21x512x512, .f32⟩ : BufTy).Contents (Elt F) → (⟨S8x21x512x512, .f32⟩ : BufTy).Contents (Elt F)),
    StableHlo.nullary main_cst_11 (constant S_ .f32 0x00000000#32),
    StableHlo.binary main_v41 main_cst_11 main_v42 ((fun x v => Host.reduceAdd x v reducesTo_S8x21x512x512_S_d0_1_2_3 h_S_) : (⟨S8x21x512x512, .f32⟩ : BufTy).Contents (Elt F) → (⟨S_, .f32⟩ : BufTy).Contents (Elt F) → (⟨S_, .f32⟩ : BufTy).Contents (Elt F)),
    StableHlo.nullary main_cst_12 (constant S_ .f32 0x4C280000#32),
    StableHlo.binary main_v42 main_cst_12 main_v43 (Host.divf : (⟨S_, .f32⟩ : BufTy).Contents (Elt F) → (⟨S_, .f32⟩ : BufTy).Contents (Elt F) → (⟨S_, .f32⟩ : BufTy).Contents (Elt F)) ]

/-- The program is that line: with the functions opened at their calls both sides are the same chain of steps, by
    computation. -/
theorem refMain_eq (c : Dev nD) : main (F := F) c = seq refOps := by
  chain_rfl

theorem ref_scopedRefs_eq : (Finset.univ.filter fun b : Ref sig .tc => b.isScoped) = ∅ := by decide
theorem ref_scopedSems_eq : (Finset.univ.filter fun sm : SemLoc sig => sm.isScoped .tc) = ∅ := by decide

/-- Every operation touches TensorCore buffers only. -/
theorem refOps_sub : (refOps : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., nullary_bufs_sub ..,
    binary_bufs_sub .., nullary_bufs_sub .., binary_bufs_sub .., unary_bufs_sub .., binary_bufs_sub .., binary_bufs_sub ..,
    unary_bufs_sub .., binary_bufs_sub .., unary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., binary_bufs_sub .., unary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., binary_bufs_sub .., nullary_bufs_sub .., binary_bufs_sub ..,
    nullary_bufs_sub .., binary_bufs_sub ..⟩

end Line

section Values

open Idealize.ShloMosaic.StableHlo

/-- Folding the line from any contents, the scaled σ's buffer ends at the scaled σ's term of the logits' buffer. -/
theorem refOps_scaled (V : Valuation τ sig (Elt Ideal)) :
    after (refOps (F := Ideal)) V (Proc.devRef .tc main_v20) = refScaled (V (Proc.devRef .tc main_arg0)) := by
  after_results_simp
  rfl

/-- Folding the line from any contents, the loss's buffer ends at the loss's term of the two argument buffers. -/
theorem refOps_loss (V : Valuation τ sig (Elt Ideal)) :
    after (refOps (F := Ideal)) V (Proc.devRef .tc main_v43)
      = refLoss (V (Proc.devRef .tc main_arg0)) (V (Proc.devRef .tc main_arg1)) := by
  after_results_simp
  rfl

/-- No operation of the line writes an argument's buffer. -/
theorem refOps_arg0 (V : Valuation τ sig (Elt Ideal)) :
    after (refOps (F := Ideal)) V (Proc.devRef .tc main_arg0) = V (Proc.devRef .tc main_arg0) := by
  after_results_simp

theorem refOps_arg1 (V : Valuation τ sig (Elt Ideal)) :
    after (refOps (F := Ideal)) V (Proc.devRef .tc main_arg1) = V (Proc.devRef .tc main_arg1) := by
  after_results_simp

end Values

theorem ref_run_raw (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = refLoss (m ((c.tc : Thread nD τ).loc main_arg0)) (m ((c.tc : Thread nD τ).loc main_arg1))
      ∧ r.2.mem ((c.tc : Thread nD τ).loc main_v20) = refScaled (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono
    (fun _ h c => ⟨(h c main_v43).trans (refOps_loss _), (h c main_v20).trans (refOps_scaled _),
      (h c main_arg0).trans (refOps_arg0 _), (h c main_arg1).trans (refOps_arg1 _)⟩)
    (StableHlo.run_seq ref_scopedRefs_eq ref_scopedSems_eq defs main (fun _ => refOps) refMain_eq (fun _ => refOps_sub) m ρ)

end Cert.Lasd.RefSide

end
-- ==== Proof.RefRead.lean ====
/-
  The second program's terms read index by index: its scaled σ is the specification's, and its loss is the sum over
  all logit indices of the class terms with β inside.
-/
import proofs.«423354_j53180285059887_3_alg».proof.Proof.RefTerm
import proofs.«423354_j53180285059887_3_alg».proof.Proof.HostRead

noncomputable section

namespace Cert.Lasd.RefSide

open Idealize.ShloMosaic Idealize.ShloMosaic.ValueIdx Cert.ReferenceIdeal Cert.Lasd Cert.Lasd.HostRead

/-! ## The elementwise operations at an index, at the extended reals -/

private theorem hostExp_at {s : Shape} (a : FVec Ideal s .f32) (i : s.Idx) : Host.exp a i = Ideal.exp (a i) := rfl
private theorem hostLog_at {s : Shape} (a : FVec Ideal s .f32) (i : s.Idx) : Host.log a i = Ideal.log (a i) := rfl
private theorem hostSqrt_at {s : Shape} (a : FVec Ideal s .f32) (i : s.Idx) : Host.sqrt a i = Ideal.sqrt (a i) := rfl
private theorem hostPowf_at {s : Shape} (a b : FVec Ideal s .f32) (i : s.Idx) :
    Host.powf a b i = Ideal.pow (a i) (b i) := rfl
private theorem hostDivf_at {s : Shape} (a b : FVec Ideal s .f32) (i : s.Idx) :
    Host.divf a b i = Ideal.div (a i) (b i) := rfl
/-- A word read unsigned as a real. -/
private theorem uitofp_at {s : Shape} {w : Nat} (a : IVec s w) (i : s.Idx) :
    (uitofp (F := Ideal) .f32 a) i = (((a i).toNat : ℝ) : EReal) := rfl
private theorem cmpi_at {s : Shape} {w : Nat} (p : CmpIPredicate) (a b : IVec s w) (i : s.Idx) :
    cmpi p a b i = IntOp.cmpi p (a i) (b i) := rfl

/-! ## The constants -/

private theorem c_zero : Ideal.ofBits .f32 0x00000000#32 = 0 := by simp [Ideal.ofBits, Ideal.ieee]
private theorem c_posInf : Ideal.ofBits .f32 0x7F800000#32 = ⊤ := by simp [Ideal.ofBits, Ideal.ieee]
private theorem c_negInf : Ideal.ofBits .f32 0xFF800000#32 = ⊥ := by simp [Ideal.ofBits, Ideal.ieee]
private theorem c_21 : Ideal.ofBits .f32 0x41A80000#32 = ((21 : ℝ) : EReal) := by
  simp [Ideal.ofBits, Ideal.ieee, -EReal.coe_mul]; norm_num
private theorem c_20 : Ideal.ofBits .f32 0x41A00000#32 = ((20 : ℝ) : EReal) := by
  simp [Ideal.ofBits, Ideal.ieee, -EReal.coe_mul]; norm_num

/-- 21 less the correction 1 (an integer word read as a real) is 20. -/
private theorem refDof_at (j : S_.Idx) : refDof j = Ideal.ofBits .f32 0x41A00000#32 := by
  show Ideal.ofBits .f32 0x41A80000#32 - (((1#32 : BitVec 32).toInt : ℝ) : EReal) = Ideal.ofBits .f32 0x41A00000#32
  rw [c_21, c_20, show (1#32 : BitVec 32).toInt = 1 by decide, ← EReal.coe_sub]
  norm_num

/-- 20 is greater than 0, so the guard of the variance is the bit 1. -/
private theorem dof_guard :
    Ideal.cmp .ogt (Ideal.ofBits .f32 0x41A00000#32) (Ideal.ofBits .f32 0x00000000#32) = 1#1 := by
  rw [c_zero, c_20]
  have h : (0 : EReal) < ((20 : ℝ) : EReal) := by exact_mod_cast (by norm_num : (0 : ℝ) < 20)
  simp [Ideal.cmp, h]

/-! ## The softmax -/

/-- A fold of max from b is at least b … -/
private theorem le_fold_max_init {ι : Type} (S : Finset ι) (b : EReal) (v : ι → EReal) : b ≤ S.fold max b v := by
  induction S using Finset.cons_induction with
  | empty => simp
  | cons a S ha ih =>
    rw [Finset.fold_cons]
    exact le_trans ih (le_max_right _ _)

/-- … so taking the greater of b and the fold once more changes nothing. -/
private theorem max_fold (b : EReal) (v : Fin 21 → EReal) :
    max b (Finset.univ.fold max b v) = Finset.univ.fold max b v :=
  max_eq_right (le_fold_max_init _ b v)

theorem refExp_apply (X : FVec Ideal S8x21x512x512 .f32) (n : Fin 8) (c : Fin 21) (y x : Fin 512) :
    refExp X (ix4 n c y x) = colExp (col X n y x) c := by
  unfold refExp
  rw [hostExp_at, subf_apply, bcast_cls_apply, bcast_px_apply, maximumf_apply, bcast_scalar_apply, constant_apply,
    reduceMax_cls, constant_apply, max_fold]
  rfl

theorem refP_apply (X : FVec Ideal S8x21x512x512 .f32) (n : Fin 8) (c : Fin 21) (y x : Fin 512) :
    refP X (ix4 n c y x) = colP (col X n y x) c := by
  unfold refP
  rw [addf_apply, hostDivf_at, bcast_cls_apply, bcast_px_apply, reduceAdd_cls, bcast_scalar_apply, constant_apply,
    constant_apply, c_zero, zero_add]
  simp only [refExp_apply]
  rfl

/-! ## The standard deviation -/

theorem refSqDev_apply (X : FVec Ideal S8x21x512x512 .f32) (n : Fin 8) (y x : Fin 512) :
    refSqDev X (ix3 n y x)
      = ∑ k : Fin 21, (colP (col X n y x) k - colMean (col X n y x)) * (colP (col X n y x) k - colMean (col X n y x)) := by
  unfold refSqDev
  rw [reduceAdd_cls, constant_apply, c_zero, zero_add]
  refine Finset.sum_congr rfl fun k _ => ?_
  rw [mulf_apply, subf_apply, bcast_cls_apply, hostDivf_at, bcast_px_apply, reduceAdd_cls, bcast_scalar_apply,
    constant_apply, constant_apply, c_zero, zero_add, refP_apply]
  simp only [refP_apply]
  rfl

theorem refSig_apply (X : FVec Ideal S8x21x512x512 .f32) (n : Fin 8) (y x : Fin 512) :
    refSig X (ix3 n y x) = colSig (col X n y x) := by
  unfold refSig
  rw [hostSqrt_at, select_apply, hostDivf_at]
  repeat rw [bcast_scalar_apply]
  rw [cmpf_apply, refDof_at, constant_apply, Ideal.cmpf_def, dof_guard, select_one, refSqDev_apply]
  rfl

/-- σ at every pixel is the specification's. -/
theorem refSig_eq (X : FVec Ideal S8x21x512x512 .f32) : refSig X = sigA X := by
  funext i
  obtain ⟨n, y, x, rfl⟩ : ∃ n y x, i = ix3 n y x := ⟨i 0, i 1, i 2, eq_ix3 i⟩
  exact refSig_apply X n y x

/-! ## The extremes, the scaled σ and β -/

theorem refMin_at (X : FVec Ideal S8x21x512x512 .f32) (j : S_.Idx) : refMin X j = sMin X := by
  unfold refMin
  rw [reduce_min_all _ _ _ _ (fun b => b.elim0), constant_apply, c_posInf, refSig_eq, min_eq_right le_top]
  rfl

theorem refMax_at (X : FVec Ideal S8x21x512x512 .f32) (j : S_.Idx) : refMax X j = sMax X := by
  unfold refMax
  rw [reduce_max_all _ _ _ _ (fun b => b.elim0), constant_apply, c_negInf, refSig_eq, max_eq_right bot_le]
  rfl

theorem refScaled_eq (X : FVec Ideal S8x21x512x512 .f32) : refScaled X = scaledA X := by
  funext i
  unfold refScaled
  rw [hostDivf_at, subf_apply]
  repeat rw [bcast_scalar_apply]
  rw [subf_apply, refMin_at, refMax_at, refSig_eq]
  rfl

theorem refBeta_apply (X : FVec Ideal S8x21x512x512 .f32) (i : S8x512x512.Idx) :
    refBeta X i = betaR (scaledA X i) := by
  unfold refBeta
  rw [addf_apply, hostDivf_at, hostExp_at]
  repeat rw [bcast_scalar_apply]
  rw [constant_apply, refScaled_eq]
  rfl

/-! ## The smoothed one-hot weights -/

/-- A per-pixel array put along 31 classes reads the pixel's entry at every class. -/
private theorem bcast31_apply {α : Type}
    (hb : (⟨4, ![8, 1, 512, 512]⟩ : Shape).BroadcastsInDim ⟨4, ![8, 31, 512, 512]⟩ ![0, 1, 2, 3])
    (a : (⟨4, ![8, 1, 512, 512]⟩ : Shape).Idx → α) (n : Fin 8) (c : Fin 31) (y x : Fin 512) :
    broadcastInDim ⟨4, ![8, 31, 512, 512]⟩ ![0, 1, 2, 3] hb a (ix4 n c y x) = a (ix4 n 0 y x) := by
  refine broadcastInDim_apply _ hb a _ (ix4 n 0 y x) fun d => ?_
  match d with
  | ⟨0, _⟩ => rfl
  | ⟨1, _⟩ => rfl
  | ⟨2, _⟩ => rfl
  | ⟨3, _⟩ => rfl

/-- A per-class array put along every pixel reads the class's entry at every pixel. -/
private theorem bcastCls31_apply {α : Type}
    (hb : (⟨4, ![1, 31, 1, 1]⟩ : Shape).BroadcastsInDim ⟨4, ![8, 31, 512, 512]⟩ ![0, 1, 2, 3])
    (a : (⟨4, ![1, 31, 1, 1]⟩ : Shape).Idx → α) (n : Fin 8) (c : Fin 31) (y x : Fin 512) :
    broadcastInDim ⟨4, ![8, 31, 512, 512]⟩ ![0, 1, 2, 3] hb a (ix4 n c y x) = a (ix4 0 c 0 0) := by
  refine broadcastInDim_apply _ hb a _ (ix4 0 c 0 0) fun d => ?_
  match d with
  | ⟨0, _⟩ => rfl
  | ⟨1, _⟩ => rfl
  | ⟨2, _⟩ => rfl
  | ⟨3, _⟩ => rfl

/-- The first 21 of 31 classes: the cut reads the same class of the longer array. -/
private theorem slice21_apply {α : Type}
    (hs : (⟨4, ![8, 31, 512, 512]⟩ : Shape).Slices ![0, 0, 0, 0] ⟨4, ![8, 21, 512, 512]⟩)
    (a : (⟨4, ![8, 31, 512, 512]⟩ : Shape).Idx → α) (n : Fin 8) (c : Fin 21) (y x : Fin 512) :
    extractStridedSlice ⟨4, ![8, 21, 512, 512]⟩ ![0, 0, 0, 0] a hs (ix4 n c y x)
      = a (ix4 n (Fin.castLE (by norm_num : 21 ≤ 31) c) y x) := by
  refine extractStridedSlice_apply _ a hs _ _ fun d => ?_
  match d with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The equality test of two words, read unsigned as a real, is 1 where they agree and 0 where they differ. -/
private theorem eqTest_real (t w : BitVec 32) :
    (((IntOp.cmpi .eq t w).toNat : ℝ) : EReal) = if t = w then (1 : EReal) else 0 := by
  by_cases h : t = w
  · subst h
    simp [IntOp.cmpi]
  · simp [IntOp.cmpi, h]

theorem refOneHot_apply (T : IVec S8x512x512 32) (n : Fin 8) (c : Fin 21) (y x : Fin 512) :
    refOneHot T (ix4 n c y x) = ohR (T (ix3 n y x)) c := by
  unfold refOneHot
  rw [slice21_apply, addf_apply, bcast_scalar_apply, constant_apply, uitofp_at, cmpi_at, bcast31_apply,
    bcast_px_apply, bcastCls31_apply, eqTest_real]
  rfl

/-! ## The loss -/

/-- A sum over every axis of a [8, 21, 512, 512] array is the initial value plus the sum over all its indices. -/
private theorem reduceAdd_all (v : S8x21x512x512.Idx → EReal) (init : S_.Idx → EReal)
    (h : S8x21x512x512.ReducesTo [0, 1, 2, 3] S_) (hu : 0 < S_.numel) (j : S_.Idx) :
    Host.reduceAdd (F := Ideal) (φ := .f32) v init h hu j = init (Shape.Idx.first hu) + ∑ i : S8x21x512x512.Idx, v i :=
  Ideal.hostReduceAdd_total h (fun b => b.elim0) v _ j

theorem refLoss_eq (X : FVec Ideal S8x21x512x512 .f32) (T : IVec S8x512x512 32) : refLoss X T = fun _ => lossR X T := by
  funext j
  unfold refLoss lossR
  rw [hostDivf_at, reduceAdd_all, constant_apply, constant_apply]
  congr 2
  refine Finset.sum_congr rfl fun i _ => ?_
  obtain ⟨n, c, y, x, rfl⟩ : ∃ n c y x, i = ix4 n c y x := ⟨i 0, i 1, i 2, i 3, eq_ix4 i⟩
  repeat rw [mulf_apply]
  rw [hostPowf_at, subf_apply, hostLog_at, bcast_cls_apply, bcast_px_apply]
  repeat rw [bcast_scalar_apply]
  repeat rw [constant_apply]
  rw [refOneHot_apply, refP_apply, refBeta_apply]
  rfl

end Cert.Lasd.RefSide

end
-- ==== Proof.PreDecode.lean ====
/-
  What the precondition says: every logit is a real number, and the deviations σ are not all one value
  (their batch minimum is below their batch maximum).
-/
import proofs.«423354_j53180285059887_3_alg».proof.Proof.Gen.Pre_finite_inputs
import proofs.«423354_j53180285059887_3_alg».proof.Proof.Spec
import proofs.«423354_j53180285059887_3_alg».proof.Proof.HostRead
import Idealize.ShloMosaic.Lib.ReduceAll

noncomputable section

namespace Cert.Lasd.Pre

open Idealize.ShloMosaic Idealize.ShloMosaic.ValueIdx Cert.Lasd
open Cert.Pre_finite_inputs Cert.Pre_finite_inputs.Facts

/-- The word 0x7F800000 denotes +∞, the word 0xFF800000 denotes -∞. -/
private theorem posInf_eq : Ideal.ofBits .f32 0x7F800000#32 = (⊤ : EReal) := by simp [Ideal.ofBits, Ideal.ieee]
private theorem negInf_eq : Ideal.ofBits .f32 0xFF800000#32 = (⊥ : EReal) := by simp [Ideal.ofBits, Ideal.ieee]

/-- An extended real whose absolute value is below +∞ is a real number. -/
private theorem real_of_abs_lt_top (a : EReal) (h : max a (-a) < ⊤) : a ≠ ⊥ ∧ a ≠ ⊤ := by
  constructor
  · rintro rfl; simp at h
  · rintro rfl; simp at h

/-- A truth value whose one-bit word is 1 is true. -/
private theorem ofBool_one {b : Bool} (h : BitVec.ofBool b = 1#1) : b = true := by
  revert h; cases b <;> decide

/-- The scalar shape has one index. -/
private instance : Subsingleton Cert.Pre_finite_inputs.S_.Idx := ⟨fun a b => funext fun d => d.elim0⟩

/-- A strict comparison of the batch minimum, folded from +∞, with the batch maximum, folded from -∞. -/
private theorem lt_of_cmp (X : I4 → EReal) (σ : I3 → EReal) (hσ : σ = sigA X)
    (h : Ideal.cmp .olt (min ⊤ (⨅ i, σ i)) (max ⊥ (⨆ i, σ i)) = 1#1) : sMin X < sMax X := by
  subst hσ
  rw [min_eq_right le_top, max_eq_right bot_le] at h
  have h' : BitVec.ofBool (decide ((⨅ i, sigA X i) < ⨆ i, sigA X i)) = 1#1 := h
  exact of_decide_eq_true (ofBool_one h')

theorem pre_decode (X : FVec Ideal Cert.Pre_finite_inputs.S8x21x512x512 .f32) (T : IVec Cert.Pre_finite_inputs.S8x512x512 32)
    (h : Cert.Pre_finite_inputs.fn (F := Ideal) X T = fun _ => 1#1) :
    (∀ j, X j ≠ ⊥ ∧ X j ≠ ⊤) ∧ sMin X < sMax X := by
  have h0 := congrFun h ix0
  dsimp only [Cert.Pre_finite_inputs.fn, Cert.Pre_finite_inputs.fn_part1] at h0
  obtain ⟨hfin, hlt⟩ := IntOp.andi_eq_one.1 h0
  refine ⟨fun j => ?_, ?_⟩
  · have hj := Host.reduce_andi_all _ _ _ _ ix0 hfin j
    have hj' : Ideal.cmp .olt (max (X j) (-(X j))) (Ideal.ofBits .f32 0x7F800000#32) = 1#1 := hj
    rw [posInf_eq] at hj'
    have hj'' : BitVec.ofBool (decide (max (X j) (-(X j)) < ⊤)) = 1#1 := hj'
    exact real_of_abs_lt_top _ (of_decide_eq_true (ofBool_one hj''))
  · rw [cmpf_apply, Ideal.cmpf_def, HostRead.reduce_min_all _ _ _ _ (fun b => b.elim0),
      HostRead.reduce_max_all _ _ _ _ (fun b => b.elim0), constant_apply, constant_apply, posInf_eq, negInf_eq] at hlt
    refine lt_of_cmp X _ ?_ hlt
    funext i
    obtain ⟨n, y, x, rfl⟩ : ∃ n y x, i = ix3 n y x := ⟨i 0, i 1, i 2, eq_ix3 i⟩
    clear hlt hfin h0 h
    revert n y x
    -- the column maximum
    generalize hv0 : Host.reduce FloatOps.maximumf X (constant S_ .f32 0xFF800000#32)
      reducesTo_S8x21x512x512_S8x512x512_d1 h_S_ = v0
    have f0 : ∀ n y x, v0 (ix3 n y x) = colMax (col X n y x) := fun n y x => by
      rw [← hv0, HostRead.reduceMax_cls]; rfl
    generalize hv2 : broadcastInDim S8x21x512x512 ![0, 1, 2, 3] bcast_S8x1x512x512_S8x21x512x512_0_1_2_3
      (broadcastInDim S8x1x512x512 ![0, 2, 3] bcast_S8x512x512_S8x1x512x512_0_2_3 v0) = v2
    have f2 : ∀ n c y x, v2 (ix4 n c y x) = colMax (col X n y x) := fun n c y x => by
      rw [← hv2, HostRead.bcast_cls_apply, HostRead.bcast_px_apply, f0]
    -- the shifted exponentials and their sum
    generalize hv4 : Host.exp (subf X v2) = v4
    have f4 : ∀ n c y x, v4 (ix4 n c y x) = colExp (col X n y x) c := fun n c y x => by
      rw [← hv4]
      show Ideal.exp (X (ix4 n c y x) - v2 (ix4 n c y x)) = _
      rw [f2]; rfl
    generalize hv5 : Host.reduceAdd v4 (constant S_ .f32 0x00000000#32)
      reducesTo_S8x21x512x512_S8x512x512_d1 h_S_ = v5
    have f5 : ∀ n y x, v5 (ix3 n y x) = ∑ k : Fin 21, colExp (col X n y x) k := fun n y x => by
      rw [← hv5, HostRead.reduceAdd_cls, constant_apply, Ideal.ofBits_zero_f32, zero_add]
      exact Finset.sum_congr rfl fun c _ => f4 n c y x
    generalize hv7 : broadcastInDim S8x21x512x512 ![0, 1, 2, 3] bcast_S8x1x512x512_S8x21x512x512_0_1_2_3
      (broadcastInDim S8x1x512x512 ![0, 2, 3] bcast_S8x512x512_S8x1x512x512_0_2_3 v5) = v7
    have f7 : ∀ n c y x, v7 (ix4 n c y x) = ∑ k : Fin 21, colExp (col X n y x) k := fun n c y x => by
      rw [← hv7, HostRead.bcast_cls_apply, HostRead.bcast_px_apply, f5]
    -- the softmax plus ε
    generalize hv10 : addf (Host.divf v4 v7)
      (broadcastInDim S8x21x512x512 ![] bcast_S_S8x21x512x512 (constant S_ .f32 0x322BCC77#32)) = v10
    have f10 : ∀ n c y x, v10 (ix4 n c y x) = colP (col X n y x) c := fun n c y x => by
      rw [← hv10]
      show Ideal.div (v4 (ix4 n c y x)) (v7 (ix4 n c y x))
        + broadcastInDim S8x21x512x512 ![] bcast_S_S8x21x512x512 (constant (F := Ideal) S_ .f32 0x322BCC77#32) (ix4 n c y x) = _
      rw [f4, f7, HostRead.bcast_scalar_apply]; rfl
    -- its mean over the classes
    generalize hv11 : Host.reduceAdd v10 (constant S_ .f32 0x00000000#32)
      reducesTo_S8x21x512x512_S8x512x512_d1 h_S_ = v11
    have f11 : ∀ n y x, v11 (ix3 n y x) = ∑ k : Fin 21, colP (col X n y x) k := fun n y x => by
      rw [← hv11, HostRead.reduceAdd_cls, constant_apply, Ideal.ofBits_zero_f32, zero_add]
      exact Finset.sum_congr rfl fun c _ => f10 n c y x
    generalize hv15 : broadcastInDim S8x21x512x512 ![0, 1, 2, 3] bcast_S8x1x512x512_S8x21x512x512_0_1_2_3
      (Host.divf (broadcastInDim S8x1x512x512 ![0, 2, 3] bcast_S8x512x512_S8x1x512x512_0_2_3 v11)
        (broadcastInDim S8x1x512x512 ![] bcast_S_S8x1x512x512 (constant S_ .f32 0x41A80000#32))) = v15
    have f15 : ∀ n c y x, v15 (ix4 n c y x) = colMean (col X n y x) := fun n c y x => by
      rw [← hv15, HostRead.bcast_cls_apply]
      show Ideal.div (broadcastInDim S8x1x512x512 ![0, 2, 3] bcast_S8x512x512_S8x1x512x512_0_2_3 v11 (ix4 n 0 y x))
        (broadcastInDim S8x1x512x512 ![] bcast_S_S8x1x512x512 (constant (F := Ideal) S_ .f32 0x41A80000#32) (ix4 n 0 y x)) = _
      rw [HostRead.bcast_px_apply, HostRead.bcast_scalar_apply, f11]; rfl
    -- the squared deviations and their sum
    generalize hv17 : mulf (subf v10 v15) (subf v10 v15) = v17
    have f17 : ∀ n c y x, v17 (ix4 n c y x)
        = (colP (col X n y x) c - colMean (col X n y x)) * (colP (col X n y x) c - colMean (col X n y x)) :=
      fun n c y x => by
        rw [← hv17]
        show (v10 (ix4 n c y x) - v15 (ix4 n c y x)) * (v10 (ix4 n c y x) - v15 (ix4 n c y x)) = _
        rw [f10, f15]
    generalize hv18 : Host.reduceAdd v17 (constant S_ .f32 0x00000000#32)
      reducesTo_S8x21x512x512_S8x512x512_d1 h_S_ = v18
    have f18 : ∀ n y x, v18 (ix3 n y x)
        = ∑ k : Fin 21, (colP (col X n y x) k - colMean (col X n y x)) * (colP (col X n y x) k - colMean (col X n y x)) :=
      fun n y x => by
        rw [← hv18, HostRead.reduceAdd_cls, constant_apply, Ideal.ofBits_zero_f32, zero_add]
        exact Finset.sum_congr rfl fun c _ => f17 n c y x
    intro n y x
    show Ideal.sqrt (Ideal.div (v18 (ix3 n y x))
      (broadcastInDim S8x512x512 ![] bcast_S_S8x512x512 (constant (F := Ideal) S_ .f32 0x41A00000#32) (ix3 n y x))) = _
    rw [f18, HostRead.bcast_scalar_apply]; rfl

end Cert.Lasd.Pre

end
-- ==== Proof.Bridge.lean ====
/-
  The two ways of writing the loss agree when every logit is real and σ is not constant: then p, σ, the scaled σ
  and β are real numbers, a real square is the second power, 1 / exp s is exp (-s), and a real factor moves across
  a finite sum of reals.
-/
import proofs.«423354_j53180285059887_3_alg».proof.Proof.Spec
import Idealize.ShloMosaic.PureOps.Ideal.Laws
import Mathlib.Data.EReal.Basic
import Mathlib.Data.EReal.Operations
import Mathlib.Data.EReal.Inv
import Mathlib.Analysis.SpecialFunctions.Pow.Real
import Mathlib.Analysis.SpecialFunctions.Log.Basic
import Mathlib.Analysis.SpecialFunctions.Sqrt
import Mathlib.Algebra.BigOperators.Ring.Finset
import Mathlib.Data.Fintype.BigOperators
import Mathlib.Data.Finset.Fold
import Mathlib.Data.Fintype.Lattice
import Mathlib.Order.Fin.Basic

noncomputable section

namespace Cert.Lasd

open Idealize.ShloMosaic Idealize.ShloMosaic.ValueIdx

/-! ## The constants as real numbers -/

private theorem kNegInf_eq : kNegInf = ⊥ := by
  simp [Ideal.ofBits, Ideal.ieee]

private theorem kZero_eq : kZero = ((0 : ℝ) : EReal) := by
  simp [Ideal.ofBits, Ideal.ieee]

private theorem kOne_eq : kOne = ((1 : ℝ) : EReal) := by
  simp [Ideal.ofBits, Ideal.ieee, -EReal.coe_mul]; norm_num

private theorem kTwo_eq : kTwo = ((2 : ℝ) : EReal) := by
  simp [Ideal.ofBits, Ideal.ieee, -EReal.coe_mul]; norm_num

private theorem k21_eq : k21 = ((21 : ℝ) : EReal) := by
  simp [Ideal.ofBits, Ideal.ieee, -EReal.coe_mul]; norm_num

private theorem k20_eq : k20 = ((20 : ℝ) : EReal) := by
  simp [Ideal.ofBits, Ideal.ieee, -EReal.coe_mul]; norm_num

private theorem kQuarter_eq : kQuarter = ((-(1 / 4) : ℝ) : EReal) := by
  simp [Ideal.ofBits, Ideal.ieee, -EReal.coe_mul]; norm_num

private theorem kEps_eq : ∃ e : ℝ, 0 < e ∧ kEps = (e : EReal) := by
  refine ⟨_, ?_, by simp [Ideal.ofBits, Ideal.ieee, -EReal.coe_mul]; rfl⟩
  positivity

private theorem kDelta_eq : ∃ d : ℝ, kDelta = (d : EReal) := by
  exact ⟨_, by simp [Ideal.ofBits, Ideal.ieee, -EReal.coe_mul]; rfl⟩

/-! ## A finite sum of coerced reals is the coerced sum -/

private theorem coe_sum {ι : Type} (s : Finset ι) (g : ι → ℝ) :
    ∑ k ∈ s, ((g k : ℝ) : EReal) = ((∑ k ∈ s, g k : ℝ) : EReal) := by
  classical
  refine Finset.induction_on s ?_ ?_
  · simp
  · intro a s ha ih
    rw [Finset.sum_insert ha, Finset.sum_insert ha, ih, EReal.coe_add]

/-! ## One pixel: a real column -/

/-- The maximum of a real column is one of its entries. -/
private theorem colMax_real (v : Fin 21 → ℝ) : ∃ m : ℝ, colMax (fun c => (v c : EReal)) = (m : EReal) := by
  have h : ∀ s : Finset (Fin 21), s.Nonempty →
      ∃ i, s.fold max kNegInf (fun c => (v c : EReal)) = (v i : EReal) := by
    intro s hs
    induction hs using Finset.Nonempty.cons_induction with
    | singleton a =>
      refine ⟨a, ?_⟩
      rw [Finset.fold_singleton, kNegInf_eq]
      exact max_bot_right _
    | cons a s ha hs ih =>
      obtain ⟨i, hi⟩ := ih
      rw [Finset.fold_cons, hi]
      rcases le_total (v a) (v i) with h | h
      · exact ⟨i, max_eq_right (EReal.coe_le_coe_iff.2 h)⟩
      · exact ⟨a, max_eq_left (EReal.coe_le_coe_iff.2 h)⟩
  obtain ⟨i, hi⟩ := h Finset.univ Finset.univ_nonempty
  exact ⟨v i, hi⟩

/-- The shifted exponentials are real exponentials. -/
private theorem colExp_real (v : Fin 21 → ℝ) (m : ℝ) (hm : colMax (fun c => (v c : EReal)) = (m : EReal))
    (c : Fin 21) : colExp (fun c => (v c : EReal)) c = ((Real.exp (v c - m) : ℝ) : EReal) := by
  unfold colExp
  rw [hm, ← EReal.coe_sub, Ideal.exp_coe]

/-- The softmax plus ε of a real column is a column of positive reals. -/
private theorem colP_real (v : Fin 21 → ℝ) :
    ∃ p : Fin 21 → ℝ, (∀ c, 0 < p c) ∧ ∀ c, colP (fun c => (v c : EReal)) c = ((p c : ℝ) : EReal) := by
  obtain ⟨m, hm⟩ := colMax_real v
  obtain ⟨e, he, hE⟩ := kEps_eq
  have hS : 0 < ∑ k : Fin 21, Real.exp (v k - m) :=
    Finset.sum_pos (fun k _ => Real.exp_pos _) Finset.univ_nonempty
  refine ⟨fun c => Real.exp (v c - m) * (1 / ∑ k : Fin 21, Real.exp (v k - m)) + e, fun c => ?_, fun c => ?_⟩
  · have h1 : 0 < Real.exp (v c - m) * (1 / ∑ k : Fin 21, Real.exp (v k - m)) :=
      mul_pos (Real.exp_pos _) (one_div_pos.2 hS)
    linarith
  · unfold colP
    simp only [colExp_real v m hm]
    rw [coe_sum, Ideal.div_coe hS.ne', hE, ← EReal.coe_mul, ← EReal.coe_add]

/-- The standard deviation of 21 real numbers is a real number. -/
private theorem sig_real (p : Fin 21 → ℝ) :
    ∃ σ : ℝ, Ideal.sqrt (Ideal.div (∑ k : Fin 21,
      ((p k : EReal) - Ideal.div (∑ k : Fin 21, (p k : EReal)) k21)
        * ((p k : EReal) - Ideal.div (∑ k : Fin 21, (p k : EReal)) k21)) k20) = (σ : EReal) := by
  have h21 : (21 : ℝ) ≠ 0 := by norm_num
  have h20 : (20 : ℝ) ≠ 0 := by norm_num
  have hmean : Ideal.div (∑ k : Fin 21, (p k : EReal)) k21 = (((∑ k : Fin 21, p k) * (1 / 21) : ℝ) : EReal) := by
    rw [k21_eq, coe_sum, Ideal.div_coe h21, ← EReal.coe_mul]
  rw [hmean]
  have hdev : ∀ k : Fin 21, ((p k : EReal) - (((∑ k : Fin 21, p k) * (1 / 21) : ℝ) : EReal))
      * ((p k : EReal) - (((∑ k : Fin 21, p k) * (1 / 21) : ℝ) : EReal))
      = (((p k - (∑ k : Fin 21, p k) * (1 / 21)) * (p k - (∑ k : Fin 21, p k) * (1 / 21)) : ℝ) : EReal) := by
    intro k
    rw [← EReal.coe_sub, ← EReal.coe_mul]
  rw [Finset.sum_congr rfl (fun k _ => hdev k), coe_sum, k20_eq, Ideal.div_coe h20, ← EReal.coe_mul, Ideal.sqrt_coe]
  have hnn : 0 ≤ ∑ k : Fin 21, (p k - (∑ k : Fin 21, p k) * (1 / 21)) * (p k - (∑ k : Fin 21, p k) * (1 / 21)) :=
    Finset.sum_nonneg (fun k _ => mul_self_nonneg _)
  rw [if_neg (not_lt.2 (mul_nonneg hnn (by norm_num)))]
  exact ⟨_, rfl⟩

/-- The standard deviation of a real column's p is a real number. -/
private theorem colSig_real (v : Fin 21 → ℝ) : ∃ σ : ℝ, colSig (fun c => (v c : EReal)) = (σ : EReal) := by
  obtain ⟨p, _, hp⟩ := colP_real v
  unfold colSig colMean
  simp only [hp]
  exact sig_real p

/-! ## β of a real argument, in both spellings -/

private theorem betaK_real (s : ℝ) : betaK (s : EReal) = ((Real.exp (-s) + 1 : ℝ) : EReal) := by
  unfold betaK
  rw [kOne_eq, ← EReal.coe_neg, Ideal.exp_coe, ← EReal.coe_add]

private theorem betaR_real (s : ℝ) : betaR (s : EReal) = ((Real.exp (-s) + 1 : ℝ) : EReal) := by
  unfold betaR
  rw [kOne_eq, Ideal.exp_coe, Ideal.div_coe (Real.exp_pos s).ne', ← EReal.coe_mul, ← EReal.coe_add, Real.exp_neg]
  congr 1
  ring

/-! ## The smoothed one-hot weight, in both spellings -/

private theorem oh_real (t : BitVec 32) (c : Fin 21) : ∃ w : ℝ, ohK t c = (w : EReal) ∧ ohR t c = (w : EReal) := by
  obtain ⟨d, hd⟩ := kDelta_eq
  unfold ohK ohR
  rw [hd, kOne_eq, kZero_eq]
  by_cases h : BitVec.ofNat 32 c.val = t
  · rw [if_pos h, if_pos h.symm]
    exact ⟨1 + d, by rw [EReal.coe_add], by rw [EReal.coe_add, EReal.coe_one]⟩
  · rw [if_neg h, if_neg (fun h' => h h'.symm)]
    exact ⟨0 + d, by rw [EReal.coe_add], by rw [EReal.coe_add, EReal.coe_zero]⟩

/-! ## One class term, in both spellings -/

private theorem termK_real (w p : ℝ) (hp : 0 < p) :
    (w : EReal) * ((kQuarter * ((kOne - (p : EReal)) * (kOne - (p : EReal)))) * Ideal.log (p : EReal))
      = ((w * ((-(1 / 4)) * ((1 - p) * (1 - p)) * Real.log p) : ℝ) : EReal) := by
  rw [kQuarter_eq, kOne_eq, Ideal.log_coe, if_neg (not_le.2 hp), ← EReal.coe_sub, ← EReal.coe_mul, ← EReal.coe_mul,
    ← EReal.coe_mul, ← EReal.coe_mul]

private theorem termR_real (w p b : ℝ) (hp : 0 < p) :
    (w : EReal) * (((kQuarter * Ideal.pow (kOne - (p : EReal)) kTwo) * Ideal.log (p : EReal)) * (b : EReal))
      = ((w * ((-(1 / 4)) * ((1 - p) * (1 - p)) * Real.log p * b) : ℝ) : EReal) := by
  rw [kQuarter_eq, kOne_eq, kTwo_eq, Ideal.log_coe, if_neg (not_le.2 hp), ← EReal.coe_sub, Ideal.pow_coe_coe,
    Real.rpow_eq_pow, Real.rpow_two, ← EReal.coe_mul, ← EReal.coe_mul, ← EReal.coe_mul, ← EReal.coe_mul, pow_two]

/-! ## One pixel: β times the focal sum is the sum of the class terms with β inside -/

private theorem pixel_eq (v : Fin 21 → ℝ) (t : BitVec 32) (s : ℝ) :
    betaK (s : EReal) * colFs (fun c => (v c : EReal)) t
      = ∑ c : Fin 21, ohR t c * (((kQuarter * Ideal.pow (kOne - colP (fun c => (v c : EReal)) c) kTwo)
          * Ideal.log (colP (fun c => (v c : EReal)) c)) * betaR (s : EReal)) := by
  obtain ⟨p, hp0, hp⟩ := colP_real v
  choose w hwK hwR using oh_real t
  have hL : ∀ c : Fin 21, ohK t c * colFocK (fun c => (v c : EReal)) c
      = ((w c * ((-(1 / 4)) * ((1 - p c) * (1 - p c)) * Real.log (p c)) : ℝ) : EReal) := by
    intro c
    unfold colFocK
    rw [hwK, hp]
    exact termK_real (w c) (p c) (hp0 c)
  have hR : ∀ c : Fin 21, ohR t c * (((kQuarter * Ideal.pow (kOne - colP (fun c => (v c : EReal)) c) kTwo)
          * Ideal.log (colP (fun c => (v c : EReal)) c)) * betaR (s : EReal))
      = ((w c * ((-(1 / 4)) * ((1 - p c) * (1 - p c)) * Real.log (p c) * (Real.exp (-s) + 1)) : ℝ) : EReal) := by
    intro c
    rw [hwR, hp, betaR_real]
    exact termR_real (w c) (p c) _ (hp0 c)
  unfold colFs
  rw [betaK_real, Finset.sum_congr rfl (fun c _ => hL c), Finset.sum_congr rfl (fun c _ => hR c), coe_sum, coe_sum,
    ← EReal.coe_mul]
  congr 1
  rw [Finset.mul_sum]
  exact Finset.sum_congr rfl (fun c _ => by ring)

/-! ## The sum over all logit indices is the sum over the pixels of the sum over the classes -/

private def e43 : I4 ≃ I3 × Fin 21 where
  toFun j := (ix3 (j 0) (j 2) (j 3), j 1)
  invFun q := ix4 (q.1 0) q.2 (q.1 1) (q.1 2)
  left_inv j := (eq_ix4 j).symm
  right_inv q := Prod.ext (eq_ix3 q.1).symm rfl

private theorem sum_I4 (F : I4 → EReal) :
    ∑ j : I4, F j = ∑ i : I3, ∑ c : Fin 21, F (ix4 (i 0) c (i 1) (i 2)) := by
  rw [← Equiv.sum_comp e43.symm F, Fintype.sum_prod_type]
  exact Finset.sum_congr rfl (fun i _ => Finset.sum_congr rfl (fun c _ => rfl))

/-! ## The bridge -/

theorem loss_bridge (X : I4 → EReal) (T : I3 → BitVec 32) (hfin : ∀ j, X j ≠ ⊥ ∧ X j ≠ ⊤) (hlt : sMin X < sMax X) :
    lossK X T = lossR X T := by
  -- the logits are real numbers
  obtain ⟨Xr, rfl⟩ : ∃ Xr : I4 → ℝ, X = fun j => (Xr j : EReal) :=
    ⟨fun j => (X j).toReal, funext fun j => (EReal.coe_toReal (hfin j).2 (hfin j).1).symm⟩
  -- σ is a real number at every pixel
  have hσ : ∀ i : I3, ∃ σ : ℝ, sigA (fun j => (Xr j : EReal)) i = (σ : EReal) := by
    intro i
    obtain ⟨n, y, x, rfl⟩ : ∃ (n : Fin 8) (y x : Fin 512), i = ix3 n y x := ⟨i 0, i 1, i 2, eq_ix3 i⟩
    exact colSig_real (fun c => Xr (ix4 n c y x))
  choose σ hσ using hσ
  -- its least and greatest values are attained
  haveI : Nonempty I3 := ⟨ix3 (0 : Fin 8) (0 : Fin 512) (0 : Fin 512)⟩
  obtain ⟨i0, h0⟩ := Finite.exists_min σ
  obtain ⟨i1, h1⟩ := Finite.exists_max σ
  have hmin : sMin (fun j => (Xr j : EReal)) = (σ i0 : EReal) := by
    unfold sMin
    simp only [hσ]
    exact le_antisymm (iInf_le _ i0) (le_iInf fun i => EReal.coe_le_coe_iff.2 (h0 i))
  have hmax : sMax (fun j => (Xr j : EReal)) = (σ i1 : EReal) := by
    unfold sMax
    simp only [hσ]
    exact le_antisymm (iSup_le fun i => EReal.coe_le_coe_iff.2 (h1 i)) (le_iSup (fun i => (σ i : EReal)) i1)
  have hab : σ i0 < σ i1 := by
    rw [hmin, hmax] at hlt
    exact EReal.coe_lt_coe_iff.1 hlt
  -- so the scaled σ is a real number at every pixel
  have hs : ∀ i : I3, ∃ s : ℝ, scaledA (fun j => (Xr j : EReal)) i = (s : EReal) := by
    intro i
    unfold scaledA
    rw [hmin, hmax, hσ, ← EReal.coe_sub, ← EReal.coe_sub, Ideal.div_coe (sub_pos.2 hab).ne', ← EReal.coe_mul]
    exact ⟨_, rfl⟩
  choose s hs using hs
  -- pixel by pixel
  have key : ∑ i : I3, betaK (scaledA (fun j => (Xr j : EReal)) i) * fsA (fun j => (Xr j : EReal)) T i
      = ∑ j : I4, termR (fun j => (Xr j : EReal)) T j := by
    rw [sum_I4]
    refine Finset.sum_congr rfl (fun i _ => ?_)
    obtain ⟨n, y, x, rfl⟩ : ∃ (n : Fin 8) (y x : Fin 512), i = ix3 n y x := ⟨i 0, i 1, i 2, eq_ix3 i⟩
    have h := pixel_eq (fun c => Xr (ix4 n c y x)) (T (ix3 n y x)) (s (ix3 n y x))
    rw [← hs] at h
    exact h
  unfold lossK lossR
  rw [key]

end Cert.Lasd

end
-- ==== Proof.lean ====
/-
  The certificate's five claims. Both programs compute, for a batch of 8 images of 21-class logits with integer
  labels, the per-pixel standard deviation σ of the ε-shifted softmax over the classes, σ scaled by its batch minimum and
  maximum, and the mean over all logits of β · (one-hot + δ) · (-1/4)(1 - p)² log p with β = exp (-scaled σ) + 1.
  The first program sums each pixel's class terms inside its region, and takes the extremes of σ from per-image
  accumulators carried across the four row blocks of an image; the second is a straight line of whole-array operations.
  Under the precondition (finite logits, σ not constant over the batch) every quantity is a real number and the two
  losses are one sum, rearranged.
-/
import proofs.«423354_j53180285059887_3_alg».proof.Defs
import proofs.«423354_j53180285059887_3_alg».proof.Proof.Gen.Kernel
import proofs.«423354_j53180285059887_3_alg».proof.Proof.Gen.Kernel.Frame
import proofs.«423354_j53180285059887_3_alg».proof.Proof.Gen.KernelIdeal
import proofs.«423354_j53180285059887_3_alg».proof.Proof.Gen.KernelIdeal.Frame
import proofs.«423354_j53180285059887_3_alg».proof.Proof.Gen.ReferenceIdeal
import proofs.«423354_j53180285059887_3_alg».proof.Proof.Gen.Pre_finite_inputs
import proofs.«423354_j53180285059887_3_alg».proof.Proof.KernelValue
import proofs.«423354_j53180285059887_3_alg».proof.Proof.RefRun
import proofs.«423354_j53180285059887_3_alg».proof.Proof.RefRead
import proofs.«423354_j53180285059887_3_alg».proof.Proof.PreDecode
import proofs.«423354_j53180285059887_3_alg».proof.Proof.Bridge

noncomputable section

namespace Cert.Proof

open Idealize.ShloMosaic Idealize.SL.Sem

/-- The word-level program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The second program's run, with the results dropped. -/
theorem frame_ri : Cert.frame_ReferenceIdeal := fun m ρ _ =>
  (θ_run Cert.ReferenceIdeal.defs _ _).mono (fun _ h c => ⟨(h c).2.2.1, (h c).2.2.2⟩) (Cert.Lasd.RefSide.ref_run_raw m ρ)

/-- Nothing was rewritten between the word-level program and its reading over the extended reals. -/
theorem preserves : Cert.preserves_Kernel_KernelIdeal := trivial

/-- Both runs end, the first at the loss with β outside the class sum and the second with β inside; under the
    precondition these are equal, and the scaled σ is the same function of the logits on both sides. -/
theorem algebraic : Cert.algebraic_KernelIdeal_ReferenceIdeal := by
  intro m ρ m' ρ' hpre hagree
  refine ⟨fun c => fun _ => Cert.Lasd.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Lasd.scaledA (m ((c.tc : Thread Cert.KernelIdeal.nD Cert.KernelIdeal.τ).loc Cert.KernelIdeal.main_arg0)),
    Cert.Lasd.KernelSide.kernel_run m ρ, ?_⟩
  refine (θ_run Cert.ReferenceIdeal.defs _ _).mono (fun r h c => ⟨(h c).1.trans ?_, (h c).2.1.trans ?_, (h c).2.2.1, (h c).2.2.2⟩)
    (Cert.Lasd.RefSide.ref_run_raw m' ρ')
  · rw [(hagree c).1, (hagree c).2, Cert.Lasd.RefSide.refLoss_eq]
    obtain ⟨hfin, hlt⟩ := Cert.Lasd.Pre.pre_decode _ _ (hpre c)
    funext _
    exact (Cert.Lasd.loss_bridge _ _ hfin hlt).symm
  · rw [(hagree c).1, Cert.Lasd.RefSide.refScaled_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
